-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1 : Shape := ⟨2, ![8192, 1]⟩
abbrev S8192x15 : Shape := ⟨2, ![8192, 15]⟩
abbrev S16x256 : Shape := ⟨2, ![16, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S15x256 : Shape := ⟨2, ![15, 256]⟩
abbrev S256x2 : Shape := ⟨2, ![256, 2]⟩
abbrev S2 : Shape := ⟨1, ![2]⟩
abbrev S_ : Shape := ⟨0, ![]⟩

class Facts : Prop where
  bcast_S_S8192x1 : S_.BroadcastsInDim S8192x1 (![] : Fin 0 → Fin S8192x1.rank)
  reducesTo_S8192x1_S_d0_1 : S8192x1.ReducesTo [0, 1] S_
  h_S_ : 0 < S_.numel
  bcast_S_S8192x15 : S_.BroadcastsInDim S8192x15 (![] : Fin 0 → Fin S8192x15.rank)
  reducesTo_S8192x15_S_d0_1 : S8192x15.ReducesTo [0, 1] S_
  bcast_S_S16x256 : S_.BroadcastsInDim S16x256 (![] : Fin 0 → Fin S16x256.rank)
  reducesTo_S16x256_S_d0_1 : S16x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S15x256 : S_.BroadcastsInDim S15x256 (![] : Fin 0 → Fin S15x256.rank)
  reducesTo_S15x256_S_d0_1 : S15x256.ReducesTo [0, 1] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part5 {F : FTy → Type} [FloatOps F] (main_v83 : IVec S_ 1) (main_v84 : FVec F S2 .f32) (main_cst_32 : FVec F S_ .f32) : IVec S_ 1 :=
  let main_v85 : FVec F S2 .f32 := broadcastInDim S2 ![] bcast_S_S2 main_cst_32
  let main_v86 : IVec S2 1 := cmpf .olt main_v84 main_v85
  let main_c_33 : IVec S_ 1 := constantI S_ 1 1#1
  let main_v87 : IVec S_ 1 := (fun x v => Host.reduce IntOp.andi x v reducesTo_S2_S_d0 h_S_) main_v86 main_c_33
  let main_v88 : IVec S_ 1 := andi main_v83 main_v87
  main_v88

def fn_part4 {F : FTy → Type} [FloatOps F] (main_arg14 : FVec F S256x256 .f32) (main_arg15 : FVec F S256 .f32) (main_arg16 : FVec F S256x2 .f32) (main_arg17 : FVec F S2 .f32) (main_v63 : IVec S_ 1) (main_v67 : IVec S_ 1) : IVec S_ 1 :=
  let main_v68 : IVec S_ 1 := andi main_v63 main_v67
  let main_v69 : FVec F S256x256 .f32 := Host.absf main_arg14
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x2 .f32 := Host.absf main_arg16
  let main_cst_30 : FVec F S_ .f32 := constant S_ .f32 0x7F800000#32
  let main_v80 : FVec F S256x2 .f32 := broadcastInDim S256x2 ![] bcast_S_S256x2 main_cst_30
  let main_v81 : IVec S256x2 1 := cmpf .olt main_v79 main_v80
  let main_c_31 : IVec S_ 1 := constantI S_ 1 1#1
  let main_v82 : IVec S_ 1 := (fun x v => Host.reduce IntOp.andi x v reducesTo_S256x2_S_d0_1 h_S_) main_v81 main_c_31
  let main_v83 : IVec S_ 1 := andi main_v78 main_v82
  let main_v84 : FVec F S2 .f32 := Host.absf main_arg17
  let main_cst_32 : FVec F S_ .f32 := constant S_ .f32 0x7F800000#32
  fn_part5 (F := F) main_v83 main_v84 main_cst_32

def fn_part3 {F : FTy → Type} [FloatOps F] (main_arg11 : FVec F S256 .f32) (main_arg12 : FVec F S256x256 .f32) (main_arg13 : FVec F S256 .f32) (main_arg14 : FVec F S256x256 .f32) (main_arg15 : FVec F S256 .f32) (main_arg16 : FVec F S256x2 .f32) (main_arg17 : FVec F S2 .f32) (main_v48 : IVec S_ 1) (main_v49 : FVec F S15x256 .f32) (main_v50 : FVec F S15x256 .f32) : IVec S_ 1 :=
  let main_v51 : IVec S15x256 1 := cmpf .olt main_v49 main_v50
  let main_c_19 : IVec S_ 1 := constantI S_ 1 1#1
  let main_v52 : IVec S_ 1 := (fun x v => Host.reduce IntOp.andi x v reducesTo_S15x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg12
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_arg17 main_v63 main_v67

def fn_part2 {F : FTy → Type} [FloatOps F] (main_arg7 : FVec F S256 .f32) (main_arg8 : FVec F S256x1 .f32) (main_arg9 : FVec F S1 .f32) (main_arg10 : FVec F S15x256 .f32) (main_arg11 : FVec F S256 .f32) (main_arg12 : FVec F S256x256 .f32) (main_arg13 : FVec F S256 .f32) (main_arg14 : FVec F S256x256 .f32) (main_arg15 : FVec F S256 .f32) (main_arg16 : FVec F S256x2 .f32) (main_arg17 : FVec F S2 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x1 .f32 := Host.absf main_arg8
  let main_cst_14 : FVec F S_ .f32 := constant S_ .f32 0x7F800000#32
  let main_v40 : FVec F S256x1 .f32 := broadcastInDim S256x1 ![] bcast_S_S256x1 main_cst_14
  let main_v41 : IVec S256x1 1 := cmpf .olt main_v39 main_v40
  let main_c_15 : IVec S_ 1 := constantI S_ 1 1#1
  let main_v42 : IVec S_ 1 := (fun x v => Host.reduce IntOp.andi x v reducesTo_S256x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S15x256 .f32 := Host.absf main_arg10
  let main_cst_18 : FVec F S_ .f32 := constant S_ .f32 0x7F800000#32
  let main_v50 : FVec F S15x256 .f32 := broadcastInDim S15x256 ![] bcast_S_S15x256 main_cst_18
  fn_part3 (F := F) main_arg11 main_arg12 main_arg13 main_arg14 main_arg15 main_arg16 main_arg17 main_v48 main_v49 main_v50

def fn_part1 {F : FTy → Type} [FloatOps F] (main_arg4 : FVec F S256x256 .f32) (main_arg5 : FVec F S256 .f32) (main_arg6 : FVec F S256x256 .f32) (main_arg7 : FVec F S256 .f32) (main_arg8 : FVec F S256x1 .f32) (main_arg9 : FVec F S1 .f32) (main_arg10 : FVec F S15x256 .f32) (main_arg11 : FVec F S256 .f32) (main_arg12 : FVec F S256x256 .f32) (main_arg13 : FVec F S256 .f32) (main_arg14 : FVec F S256x256 .f32) (main_arg15 : FVec F S256 .f32) (main_arg16 : FVec F S256x2 .f32) (main_arg17 : FVec F S2 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S8192x1 .f32) (main_arg1 : FVec F S8192x15 .f32) (main_arg2 : FVec F S16x256 .f32) (main_arg3 : FVec F S256 .f32) (main_arg4 : FVec F S256x256 .f32) (main_arg5 : FVec F S256 .f32) (main_arg6 : FVec F S256x256 .f32) (main_arg7 : FVec F S256 .f32) (main_arg8 : FVec F S256x1 .f32) (main_arg9 : FVec F S1 .f32) (main_arg10 : FVec F S15x256 .f32) (main_arg11 : FVec F S256 .f32) (main_arg12 : FVec F S256x256 .f32) (main_arg13 : FVec F S256 .f32) (main_arg14 : FVec F S256x256 .f32) (main_arg15 : FVec F S256 .f32) (main_arg16 : FVec F S256x2 .f32) (main_arg17 : FVec F S2 .f32) : IVec S_ 1 :=
  let main_v0 : FVec F S8192x1 .f32 := Host.absf main_arg0
  let main_cst : FVec F S_ .f32 := constant S_ .f32 0x7F800000#32
  let main_v1 : FVec F S8192x1 .f32 := broadcastInDim S8192x1 ![] bcast_S_S8192x1 main_cst
  let main_v2 : IVec S8192x1 1 := cmpf .olt main_v0 main_v1
  let main_c : IVec S_ 1 := constantI S_ 1 1#1
  let main_v3 : IVec S_ 1 := (fun x v => Host.reduce IntOp.andi x v reducesTo_S8192x1_S_d0_1 h_S_) main_v2 main_c
  let main_v4 : FVec F S8192x15 .f32 := Host.absf main_arg1
  let main_cst_0 : FVec F S_ .f32 := constant S_ .f32 0x7F800000#32
  let main_v5 : FVec F S8192x15 .f32 := broadcastInDim S8192x15 ![] bcast_S_S8192x15 main_cst_0
  let main_v6 : IVec S8192x15 1 := cmpf .olt main_v4 main_v5
  let main_c_1 : IVec S_ 1 := constantI S_ 1 1#1
  let main_v7 : IVec S_ 1 := (fun x v => Host.reduce IntOp.andi x v reducesTo_S8192x15_S_d0_1 h_S_) main_v6 main_c_1
  let main_v8 : IVec S_ 1 := andi main_v3 main_v7
  let main_v9 : FVec F S16x256 .f32 := Host.absf main_arg2
  let main_cst_2 : FVec F S_ .f32 := constant S_ .f32 0x7F800000#32
  let main_v10 : FVec F S16x256 .f32 := broadcastInDim S16x256 ![] bcast_S_S16x256 main_cst_2
  let main_v11 : IVec S16x256 1 := cmpf .olt main_v9 main_v10
  let main_c_3 : IVec S_ 1 := constantI S_ 1 1#1
  let main_v12 : IVec S_ 1 := (fun x v => Host.reduce IntOp.andi x v reducesTo_S16x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S8192x1 : Shape := ⟨2, ![8192, 1]⟩
abbrev S8192x15 : Shape := ⟨2, ![8192, 15]⟩
abbrev S16x256 : Shape := ⟨2, ![16, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S15x256 : Shape := ⟨2, ![15, 256]⟩
abbrev S256x2 : Shape := ⟨2, ![256, 2]⟩
abbrev S2 : Shape := ⟨1, ![2]⟩
abbrev S51x1 : Shape := ⟨2, ![51, 1]⟩
abbrev S8192x1x1 : Shape := ⟨3, ![8192, 1, 1]⟩
abbrev S1x51x1 : Shape := ⟨3, ![1, 51, 1]⟩
abbrev S_ : Shape := ⟨0, ![]⟩
abbrev S8192x51x1 : Shape := ⟨3, ![8192, 51, 1]⟩
abbrev S8192x1x15 : Shape := ⟨3, ![8192, 1, 15]⟩
abbrev S8192x51x15 : Shape := ⟨3, ![8192, 51, 15]⟩
abbrev S8192x51x16 : Shape := ⟨3, ![8192, 51, 16]⟩
abbrev S1x256 : Shape := ⟨2, ![1, 256]⟩
abbrev S1x1 : Shape := ⟨2, ![1, 1]⟩
abbrev S1x2 : Shape := ⟨2, ![1, 2]⟩
abbrev S64x51x16 : Shape := ⟨3, ![64, 51, 16]⟩
abbrev S64x15 : Shape := ⟨2, ![64, 15]⟩
abbrev S64x1 : Shape := ⟨2, ![64, 1]⟩
abbrev S3264x16 : Shape := ⟨2, ![3264, 16]⟩
abbrev S3264x256 : Shape := ⟨2, ![3264, 256]⟩
abbrev S3264x1 : Shape := ⟨2, ![3264, 1]⟩
abbrev S64x51x1 : Shape := ⟨3, ![64, 51, 1]⟩
abbrev S64x256 : Shape := ⟨2, ![64, 256]⟩
abbrev S64x2 : Shape := ⟨2, ![64, 2]⟩

abbrev nBuf : Space → Nat
  | .hbm => 43
  | .vmem => 25
  | .smem => 0
  | _ => 0

abbrev bufTy : (tb : Table) → Fin (tcTables nBuf tb) → BufTy
  | .hbm, ⟨0, _⟩ => ⟨S8192x1, .f32⟩
  | .hbm, ⟨1, _⟩ => ⟨S8192x15, .f32⟩
  | .hbm, ⟨2, _⟩ => ⟨S16x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x1, .f32⟩
  | .hbm, ⟨9, _⟩ => ⟨S1, .f32⟩
  | .hbm, ⟨10, _⟩ => ⟨S15x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S256x2, .f32⟩
  | .hbm, ⟨17, _⟩ => ⟨S2, .f32⟩
  | .hbm, ⟨18, _⟩ => ⟨S51x1, .f32⟩
  | .hbm, ⟨19, _⟩ => ⟨S51x1, .f32⟩
  | .hbm, ⟨20, _⟩ => ⟨S8192x1x1, .f32⟩
  | .hbm, ⟨21, _⟩ => ⟨S1x51x1, .f32⟩
  | .hbm, ⟨22, _⟩ => ⟨S_, .f32⟩
  | .hbm, ⟨23, _⟩ => ⟨S1x51x1, .f32⟩
  | .hbm, ⟨24, _⟩ => ⟨S1x51x1, .f32⟩
  | .hbm, ⟨25, _⟩ => ⟨S8192x51x1, .f32⟩
  | .hbm, ⟨26, _⟩ => ⟨S8192x51x1, .f32⟩
  | .hbm, ⟨27, _⟩ => ⟨S8192x51x1, .f32⟩
  | .hbm, ⟨28, _⟩ => ⟨S_, .f32⟩
  | .hbm, ⟨29, _⟩ => ⟨S8192x51x1, .f32⟩
  | .hbm, ⟨30, _⟩ => ⟨S8192x51x1, .f32⟩
  | .hbm, ⟨31, _⟩ => ⟨S8192x1x15, .f32⟩
  | .hbm, ⟨32, _⟩ => ⟨S8192x51x15, .f32⟩
  | .hbm, ⟨33, _⟩ => ⟨S8192x51x16, .f32⟩
  | .hbm, ⟨34, _⟩ => ⟨S1x256, .f32⟩
  | .hbm, ⟨35, _⟩ => ⟨S1x256, .f32⟩
  | .hbm, ⟨36, _⟩ => ⟨S1x256, .f32⟩
  | .hbm, ⟨37, _⟩ => ⟨S1x1, .f32⟩
  | .hbm, ⟨38, _⟩ => ⟨S1x256, .f32⟩
  | .hbm, ⟨39, _⟩ => ⟨S1x256, .f32⟩
  | .hbm, ⟨40, _⟩ => ⟨S1x256, .f32⟩
  | .hbm, ⟨41, _⟩ => ⟨S1x2, .f32⟩
  | .hbm, ⟨42, _⟩ => ⟨S8192x1, .f32⟩
  | .local _ .vmem, ⟨0, _⟩ => ⟨S64x51x16, .f32⟩
  | .local _ .vmem, ⟨1, _⟩ => ⟨S64x51x16, .f32⟩
  | .local _ .vmem, ⟨2, _⟩ => ⟨S64x15, .f32⟩
  | .local _ .vmem, ⟨3, _⟩ => ⟨S64x15, .f32⟩
  | .local _ .vmem, ⟨4, _⟩ => ⟨S64x1, .f32⟩
  | .local _ .vmem, ⟨5, _⟩ => ⟨S64x1, .f32⟩
  | .local _ .vmem, ⟨6, _⟩ => ⟨S16x256, .f32⟩
  | .local _ .vmem, ⟨7, _⟩ => ⟨S1x256, .f32⟩
  | .local _ .vmem, ⟨8, _⟩ => ⟨S256x256, .f32⟩
  | .local _ .vmem, ⟨9, _⟩ => ⟨S1x256, .f32⟩
  | .local _ .vmem, ⟨10, _⟩ => ⟨S256x256, .f32⟩
  | .local _ .vmem, ⟨11, _⟩ => ⟨S1x256, .f32⟩
  | .local _ .vmem, ⟨12, _⟩ => ⟨S256x1, .f32⟩
  | .local _ .vmem, ⟨13, _⟩ => ⟨S1x1, .f32⟩
  | .local _ .vmem, ⟨14, _⟩ => ⟨S15x256, .f32⟩
  | .local _ .vmem, ⟨15, _⟩ => ⟨S1x256, .f32⟩
  | .local _ .vmem, ⟨16, _⟩ => ⟨S256x256, .f32⟩
  | .local _ .vmem, ⟨17, _⟩ => ⟨S1x256, .f32⟩
  | .local _ .vmem, ⟨18, _⟩ => ⟨S256x256, .f32⟩
  | .local _ .vmem, ⟨19, _⟩ => ⟨S1x256, .f32⟩
  | .local _ .vmem, ⟨20, _⟩ => ⟨S256x2, .f32⟩
  | .local _ .vmem, ⟨21, _⟩ => ⟨S1x2, .f32⟩
  | .local _ .vmem, ⟨22, _⟩ => ⟨S51x1, .f32⟩
  | .local _ .vmem, ⟨23, _⟩ => ⟨S64x1, .f32⟩
  | .local _ .vmem, ⟨24, _⟩ => ⟨S64x1, .f32⟩
  | _, _ => ⟨S8192x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_cst_0 : Ref sig .tc := ⟨.hbm, 19, rfl⟩
abbrev main_v0 : Ref sig .tc := ⟨.hbm, 20, rfl⟩
abbrev main_v1 : Ref sig .tc := ⟨.hbm, 21, rfl⟩
abbrev main_cst_1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst_2 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg20_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem20_1 : DmaSem sig := 24

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x51x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x15 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S15x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x2 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x2 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S51x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S64x1 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

class Facts₀ : Prop where
  bcast_S8192x1_S8192x1x1_0_2 : S8192x1.BroadcastsInDim S8192x1x1 (![0, 2] : Fin 2 → Fin S8192x1x1.rank)
  bcast_S51x1_S1x51x1_1_2 : S51x1.BroadcastsInDim S1x51x1 (![1, 2] : Fin 2 → Fin S1x51x1.rank)
  bcast_S_S1x51x1 : S_.BroadcastsInDim S1x51x1 (![] : Fin 0 → Fin S1x51x1.rank)
  bcast_S8192x1x1_S8192x51x1_0_1_2 : S8192x1x1.BroadcastsInDim S8192x51x1 (![0, 1, 2] : Fin 3 → Fin S8192x51x1.rank)
  bcast_S1x51x1_S8192x51x1_0_1_2 : S1x51x1.BroadcastsInDim S8192x51x1 (![0, 1, 2] : Fin 3 → Fin S8192x51x1.rank)
  bcast_S_S8192x51x1 : S_.BroadcastsInDim S8192x51x1 (![] : Fin 0 → Fin S8192x51x1.rank)
  bcast_S8192x15_S8192x1x15_0_2 : S8192x15.BroadcastsInDim S8192x1x15 (![0, 2] : Fin 2 → Fin S8192x1x15.rank)
  bcast_S8192x1x15_S8192x51x15_0_1_2 : S8192x1x15.BroadcastsInDim S8192x51x15 (![0, 1, 2] : Fin 3 → Fin S8192x51x15.rank)
  concatenates_S8192x51x1_S8192x51x15_S8192x51x16_d2 : Shape.Concatenates [S8192x51x1, S8192x51x15] S8192x51x16 2
  shapeCasts_S256_S1x256 : S256.ShapeCasts S1x256
  shapeCasts_S1_S1x1 : S1.ShapeCasts S1x1
  shapeCasts_S2_S1x2 : S2.ShapeCasts S1x2
  inb_S64x51x16_S64x51x16_0_0_0 : ∀ a, (![0, 0, 0] : Fin 3 → Nat) a + S64x51x16.size a ≤ S64x51x16.size a
  h_S64x51x16 : 0 < S64x51x16.numel
  shapeCasts_S64x51x16_S64x51x16 : S64x51x16.ShapeCasts S64x51x16
  shapeCasts_S64x51x16_S3264x16 : S64x51x16.ShapeCasts S3264x16
  bitsLt_bf16_f32 : FTy.bits .bf16 < FTy.bits .f32
  inb_S16x256_S16x256_0_0 : ∀ a, (![0, 0] : Fin 2 → Nat) a + S16x256.size a ≤ S16x256.size a
  h_S16x256 : 0 < S16x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S3264x256 : S1x256.Broadcasts S3264x256
  inb_S256x256_S256x256_0_0 : ∀ a, (![0, 0] : Fin 2 → Nat) a + S256x256.size a ≤ S256x256.size a
  h_S256x256 : 0 < S256x256.numel
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S3264x1 : S1x1.Broadcasts S3264x1
  shapeCasts_S3264x1_S64x51x1 : S3264x1.ShapeCasts S64x51x1
  inb_S51x1_S51x1_0_0 : ∀ a, (![0, 0] : Fin 2 → Nat) a + S51x1.size a ≤ S51x1.size a
  h_S51x1 : 0 < S51x1.numel
  shapeCasts_S51x1_S1x51x1 : S51x1.ShapeCasts S1x51x1
  broadcasts_S1x51x1_S64x51x1 : S1x51x1.Broadcasts S64x51x1
  reduces_S64x51x1_S64x1 : S64x51x1.Reduces [1] S64x1
  inb_S64x1_S64x1_0_0 : ∀ a, (![0, 0] : Fin 2 → Nat) a + S64x1.size a ≤ S64x1.size a
  h_S64x1 : 0 < S64x1.numel
  inb_S64x15_S64x15_0_0 : ∀ a, (![0, 0] : Fin 2 → Nat) a + S64x15.size a ≤ S64x15.size a
  h_S64x15 : 0 < S64x15.numel
  inb_S15x256_S15x256_0_0 : ∀ a, (![0, 0] : Fin 2 → Nat) a + S15x256.size a ≤ S15x256.size a
  h_S15x256 : 0 < S15x256.numel
  broadcasts_S1x256_S64x256 : S1x256.Broadcasts S64x256
  inb_S256x2_S256x2_0_0 : ∀ a, (![0, 0] : Fin 2 → Nat) a + S256x2.size a ≤ S256x2.size a
  h_S256x2 : 0 < S256x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S64x2 : S1x2.Broadcasts S64x2
  slices_S64x2_o0_0_S64x1 : S64x2.Slices ![0, 0] S64x1
  slices_S64x2_o0_1_S64x1 : S64x2.Slices ![0, 1] S64x1
  dot_S3264x16_S16x256_S3264x256_1_0_0_1_n_n_wf : DotDims.WF S3264x16 S16x256 S3264x256 [1] [0] [0] [1] [] []
  dot_S3264x256_S256x256_S3264x256_1_0_0_1_n_n_wf : DotDims.WF S3264x256 S256x256 S3264x256 [1] [0] [0] [1] [] []
  dot_S3264x256_S256x1_S3264x1_1_0_0_1_n_n_wf : DotDims.WF S3264x256 S256x1 S3264x1 [1] [0] [0] [1] [] []
  dot_S64x15_S15x256_S64x256_1_0_0_1_n_n_wf : DotDims.WF S64x15 S15x256 S64x256 [1] [0] [0] [1] [] []
  dot_S64x256_S256x256_S64x256_1_0_0_1_n_n_wf : DotDims.WF S64x256 S256x256 S64x256 [1] [0] [0] [1] [] []
  dot_S64x256_S256x2_S64x2_1_0_0_1_n_n_wf : DotDims.WF S64x256 S256x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x51x16.size a ≤ S8192x51x16.size a
  hwx0_0 : ∀ i : grid0.Coords, EltTy.bits .f32 = 32 ∨ (Rect.block (s := S8192x51x16) S64x51x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x15.size a ≤ S8192x15.size a
  hwx0_1 : ∀ i : grid0.Coords, EltTy.bits .f32 = 32 ∨ (Rect.block (s := S8192x15) S64x15.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S8192x1.size a
  hwx0_2 : ∀ i : grid0.Coords, EltTy.bits .f32 = 32 ∨ (Rect.block (s := S8192x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x256.size a ≤ S16x256.size a
  hwx0_3 : ∀ i : grid0.Coords, EltTy.bits .f32 = 32 ∨ (Rect.block (s := S16x256) S16x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x1.size a ≤ S256x1.size a
  hwx0_9 : ∀ i : grid0.Coords, EltTy.bits .f32 = 32 ∨ (Rect.block (s := S256x1) S256x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S15x256.size a ≤ S15x256.size a
  hwx0_11 : ∀ i : grid0.Coords, EltTy.bits .f32 = 32 ∨ (Rect.block (s := S15x256) S15x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x256.size a ≤ S256x256.size a
  hwx0_13 : ∀ i : grid0.Coords, EltTy.bits .f32 = 32 ∨ (Rect.block (s := S256x256) S256x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x256.size a
  hwx0_14 : ∀ i : grid0.Coords, EltTy.bits .f32 = 32 ∨ (Rect.block (s := S1x256) S1x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256x256.size a ≤ S256x256.size a
  hwx0_15 : ∀ i : grid0.Coords, EltTy.bits .f32 = 32 ∨ (Rect.block (s := S256x256) S256x256.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x256.size a ≤ S1x256.size a
  hwx0_16 : ∀ i : grid0.Coords, EltTy.bits .f32 = 32 ∨ (Rect.block (s := S1x256) S1x256.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S256x2.size a ≤ S256x2.size a
  hwx0_17 : ∀ i : grid0.Coords, EltTy.bits .f32 = 32 ∨ (Rect.block (s := S256x2) S256x2.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x2.size a ≤ S1x2.size a
  hwx0_18 : ∀ i : grid0.Coords, EltTy.bits .f32 = 32 ∨ (Rect.block (s := S1x2) S1x2.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S51x1.size a ≤ S51x1.size a
  hwx0_19 : ∀ i : grid0.Coords, EltTy.bits .f32 = 32 ∨ (Rect.block (s := S51x1) S51x1.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S64x1.size a ≤ S8192x1.size a
  hwx0_20 : ∀ i : grid0.Coords, EltTy.bits .f32 = 32 ∨ (Rect.block (s := S8192x1) S64x1.size (cc0_transform_20 i) (hinb0_20 i)).WholeWords (EltTy.packing .f32)

variable [Facts₀]

def dot_S3264x16_S16x256_S3264x256_1_0_0_1_n_n : DotDims S3264x16 S16x256 S3264x256 where
  lhsContracting := [1]
  rhsContracting := [0]
  lhsNonContracting := [0]
  rhsNonContracting := [1]
  lhsBatch := []
  rhsBatch := []
  wf := dot_S3264x16_S16x256_S3264x256_1_0_0_1_n_n_wf
def dot_S3264x256_S256x256_S3264x256_1_0_0_1_n_n : DotDims S3264x256 S256x256 S3264x256 where
  lhsContracting := [1]
  rhsContracting := [0]
  lhsNonContracting := [0]
  rhsNonContracting := [1]
  lhsBatch := []
  rhsBatch := []
  wf := dot_S3264x256_S256x256_S3264x256_1_0_0_1_n_n_wf
def dot_S3264x256_S256x1_S3264x1_1_0_0_1_n_n : DotDims S3264x256 S256x1 S3264x1 where
  lhsContracting := [1]
  rhsContracting := [0]
  lhsNonContracting := [0]
  rhsNonContracting := [1]
  lhsBatch := []
  rhsBatch := []
  wf := dot_S3264x256_S256x1_S3264x1_1_0_0_1_n_n_wf
def dot_S64x15_S15x256_S64x256_1_0_0_1_n_n : DotDims S64x15 S15x256 S64x256 where
  lhsContracting := [1]
  rhsContracting := [0]
  lhsNonContracting := [0]
  rhsNonContracting := [1]
  lhsBatch := []
  rhsBatch := []
  wf := dot_S64x15_S15x256_S64x256_1_0_0_1_n_n_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf
def dot_S64x256_S256x2_S64x2_1_0_0_1_n_n : DotDims S64x256 S256x2 S64x2 where
  lhsContracting := [1]
  rhsContracting := [0]
  lhsNonContracting := [0]
  rhsNonContracting := [1]
  lhsBatch := []
  rhsBatch := []
  wf := dot_S64x256_S256x2_S64x2_1_0_0_1_n_n_wf

abbrev win0_0 : Pipeline.Window sig grid0 :=
  Pipeline.Window.ofSpec (Memref.whole main_v11) S64x51x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x15.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S64x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S16x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S256x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v15) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S15x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v16) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg12) S256x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v17) S1x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg14) S256x256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v18) S1x256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg16) S256x2.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v19) S1x2.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_cst) S51x1.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v20) S64x1.size cc0_transform_20 reads0_20 true false 2 stage0_20 sem0_20
    hrank0 hreads0_20 hinb0_20 nbuf0_20 (Memref.isWhole_whole _) hwx0_20 hstage0_20

abbrev win0 : Fin 21 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | ⟨_ + 21, h⟩ => absurd h (Nat.not_lt.2 (Nat.le_add_left _ _))
abbrev spec0 : Fin 21 → Pipeline.WinSpec sig grid0.rank := fun w => (win0 w).toWinSpec

class Facts : Prop extends Facts₀ where

variable [Facts]
-- ==== ReferenceIdeal.lean ====
abbrev S8192x1 : Shape := ⟨2, ![8192, 1]⟩
abbrev S8192x15 : Shape := ⟨2, ![8192, 15]⟩
abbrev S16x256 : Shape := ⟨2, ![16, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S15x256 : Shape := ⟨2, ![15, 256]⟩
abbrev S256x2 : Shape := ⟨2, ![256, 2]⟩
abbrev S2 : Shape := ⟨1, ![2]⟩
abbrev S51x1 : Shape := ⟨2, ![51, 1]⟩
abbrev S8192x256 : Shape := ⟨2, ![8192, 256]⟩
abbrev S1x256 : Shape := ⟨2, ![1, 256]⟩
abbrev S_ : Shape := ⟨0, ![]⟩
abbrev S8192x2 : Shape := ⟨2, ![8192, 2]⟩
abbrev S1x2 : Shape := ⟨2, ![1, 2]⟩
abbrev S8192x1x1 : Shape := ⟨3, ![8192, 1, 1]⟩
abbrev S1x51x1 : Shape := ⟨3, ![1, 51, 1]⟩
abbrev S8192x51x1 : Shape := ⟨3, ![8192, 51, 1]⟩
abbrev S8192x1x15 : Shape := ⟨3, ![8192, 1, 15]⟩
abbrev S8192x51x15 : Shape := ⟨3, ![8192, 51, 15]⟩
abbrev S8192x51x16 : Shape := ⟨3, ![8192, 51, 16]⟩
abbrev S417792x16 : Shape := ⟨2, ![417792, 16]⟩
abbrev S417792x256 : Shape := ⟨2, ![417792, 256]⟩
abbrev S417792x1 : Shape := ⟨2, ![417792, 1]⟩
abbrev S1x1 : Shape := ⟨2, ![1, 1]⟩

abbrev nBuf : Space → Nat
  | .hbm => 118
  | .vmem => 0
  | .smem => 0
  | _ => 0

abbrev bufTy : (tb : Table) → Fin (tcTables nBuf tb) → BufTy
  | .hbm, ⟨0, _⟩ => ⟨S8192x1, .f32⟩
  | .hbm, ⟨1, _⟩ => ⟨S8192x15, .f32⟩
  | .hbm, ⟨2, _⟩ => ⟨S16x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x1, .f32⟩
  | .hbm, ⟨9, _⟩ => ⟨S1, .f32⟩
  | .hbm, ⟨10, _⟩ => ⟨S15x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S256x2, .f32⟩
  | .hbm, ⟨17, _⟩ => ⟨S2, .f32⟩
  | .hbm, ⟨18, _⟩ => ⟨S51x1, .f32⟩
  | .hbm, ⟨19, _⟩ => ⟨S51x1, .f32⟩
  | .hbm, ⟨20, _⟩ => ⟨S8192x256, .f32⟩
  | .hbm, ⟨21, _⟩ => ⟨S1x256, .f32⟩
  | .hbm, ⟨22, _⟩ => ⟨S8192x256, .f32⟩
  | .hbm, ⟨23, _⟩ => ⟨S8192x256, .f32⟩
  | .hbm, ⟨24, _⟩ => ⟨S_, .f32⟩
  | .hbm, ⟨25, _⟩ => ⟨S8192x256, .f32⟩
  | .hbm, ⟨26, _⟩ => ⟨S8192x256, .f32⟩
  | .hbm, ⟨27, _⟩ => ⟨S8192x256, .f32⟩
  | .hbm, ⟨28, _⟩ => ⟨S1x256, .f32⟩
  | .hbm, ⟨29, _⟩ => ⟨S8192x256, .f32⟩
  | .hbm, ⟨30, _⟩ => ⟨S8192x256, .f32⟩
  | .hbm, ⟨31, _⟩ => ⟨S_, .f32⟩
  | .hbm, ⟨32, _⟩ => ⟨S8192x256, .f32⟩
  | .hbm, ⟨33, _⟩ => ⟨S8192x256, .f32⟩
  | .hbm, ⟨34, _⟩ => ⟨S8192x256, .f32⟩
  | .hbm, ⟨35, _⟩ => ⟨S1x256, .f32⟩
  | .hbm, ⟨36, _⟩ => ⟨S8192x256, .f32⟩
  | .hbm, ⟨37, _⟩ => ⟨S8192x256, .f32⟩
  | .hbm, ⟨38, _⟩ => ⟨S_, .f32⟩
  | .hbm, ⟨39, _⟩ => ⟨S8192x256, .f32⟩
  | .hbm, ⟨40, _⟩ => ⟨S8192x256, .f32⟩
  | .hbm, ⟨41, _⟩ => ⟨S8192x2, .f32⟩
  | .hbm, ⟨42, _⟩ => ⟨S1x2, .f32⟩
  | .hbm, ⟨43, _⟩ => ⟨S8192x2, .f32⟩
  | .hbm, ⟨44, _⟩ => ⟨S8192x2, .f32⟩
  | .hbm, ⟨45, _⟩ => ⟨S8192x1, .f32⟩
  | .hbm, ⟨46, _⟩ => ⟨S8192x1, .f32⟩
  | .hbm, ⟨47, _⟩ => ⟨S8192x1, .f32⟩
  | .hbm, ⟨48, _⟩ => ⟨S8192x1x1, .f32⟩
  | .hbm, ⟨49, _⟩ => ⟨S1x51x1, .f32⟩
  | .hbm, ⟨50, _⟩ => ⟨S_, .f32⟩
  | .hbm, ⟨51, _⟩ => ⟨S1x51x1, .f32⟩
  | .hbm, ⟨52, _⟩ => ⟨S1x51x1, .f32⟩
  | .hbm, ⟨53, _⟩ => ⟨S8192x51x1, .f32⟩
  | .hbm, ⟨54, _⟩ => ⟨S8192x51x1, .f32⟩
  | .hbm, ⟨55, _⟩ => ⟨S8192x51x1, .f32⟩
  | .hbm, ⟨56, _⟩ => ⟨S_, .f32⟩
  | .hbm, ⟨57, _⟩ => ⟨S8192x51x1, .f32⟩
  | .hbm, ⟨58, _⟩ => ⟨S8192x51x1, .f32⟩
  | .hbm, ⟨59, _⟩ => ⟨S8192x1x15, .f32⟩
  | .hbm, ⟨60, _⟩ => ⟨S8192x51x15, .f32⟩
  | .hbm, ⟨61, _⟩ => ⟨S8192x51x16, .f32⟩
  | .hbm, ⟨62, _⟩ => ⟨S417792x16, .f32⟩
  | .hbm, ⟨63, _⟩ => ⟨S417792x256, .f32⟩
  | .hbm, ⟨64, _⟩ => ⟨S1x256, .f32⟩
  | .hbm, ⟨65, _⟩ => ⟨S417792x256, .f32⟩
  | .hbm, ⟨66, _⟩ => ⟨S417792x256, .f32⟩
  | .hbm, ⟨67, _⟩ => ⟨S_, .f32⟩
  | .hbm, ⟨68, _⟩ => ⟨S417792x256, .f32⟩
  | .hbm, ⟨69, _⟩ => ⟨S417792x256, .f32⟩
  | .hbm, ⟨70, _⟩ => ⟨S417792x256, .f32⟩
  | .hbm, ⟨71, _⟩ => ⟨S1x256, .f32⟩
  | .hbm, ⟨72, _⟩ => ⟨S417792x256, .f32⟩
  | .hbm, ⟨73, _⟩ => ⟨S417792x256, .f32⟩
  | .hbm, ⟨74, _⟩ => ⟨S_, .f32⟩
  | .hbm, ⟨75, _⟩ => ⟨S417792x256, .f32⟩
  | .hbm, ⟨76, _⟩ => ⟨S417792x256, .f32⟩
  | .hbm, ⟨77, _⟩ => ⟨S417792x256, .f32⟩
  | .hbm, ⟨78, _⟩ => ⟨S1x256, .f32⟩
  | .hbm, ⟨79, _⟩ => ⟨S417792x256, .f32⟩
  | .hbm, ⟨80, _⟩ => ⟨S417792x256, .f32⟩
  | .hbm, ⟨81, _⟩ => ⟨S_, .f32⟩
  | .hbm, ⟨82, _⟩ => ⟨S417792x256, .f32⟩
  | .hbm, ⟨83, _⟩ => ⟨S417792x256, .f32⟩
  | .hbm, ⟨84, _⟩ => ⟨S417792x1, .f32⟩
  | .hbm, ⟨85, _⟩ => ⟨S1x1, .f32⟩
  | .hbm, ⟨86, _⟩ => ⟨S417792x1, .f32⟩
  | .hbm, ⟨87, _⟩ => ⟨S417792x1, .f32⟩
  | .hbm, ⟨88, _⟩ => ⟨S_, .f32⟩
  | .hbm, ⟨89, _⟩ => ⟨S417792x1, .f32⟩
  | .hbm, ⟨90, _⟩ => ⟨S417792x1, .i1⟩
  | .hbm, ⟨91, _⟩ => ⟨S_, .f32⟩
  | .hbm, ⟨92, _⟩ => ⟨S417792x1, .f32⟩
  | .hbm, ⟨93, _⟩ => ⟨S417792x1, .i1⟩
  | .hbm, ⟨94, _⟩ => ⟨S_, .f32⟩
  | .hbm, ⟨95, _⟩ => ⟨S_, .f32⟩
  | .hbm, ⟨96, _⟩ => ⟨S417792x1, .f32⟩
  | .hbm, ⟨97, _⟩ => ⟨S417792x1, .f32⟩
  | .hbm, ⟨98, _⟩ => ⟨S417792x1, .f32⟩
  | .hbm, ⟨99, _⟩ => ⟨S_, .f32⟩
  | .hbm, ⟨100, _⟩ => ⟨S417792x1, .f32⟩
  | .hbm, ⟨101, _⟩ => ⟨S417792x1, .f32⟩
  | .hbm, ⟨102, _⟩ => ⟨S417792x1, .f32⟩
  | .hbm, ⟨103, _⟩ => ⟨S_, .f32⟩
  | .hbm, ⟨104, _⟩ => ⟨S417792x1, .f32⟩
  | .hbm, ⟨105, _⟩ => ⟨S417792x1, .f32⟩
  | .hbm, ⟨106, _⟩ => ⟨S8192x51x1, .f32⟩
  | .hbm, ⟨107, _⟩ => ⟨S1x51x1, .f32⟩
  | .hbm, ⟨108, _⟩ => ⟨S8192x51x1, .f32⟩
  | .hbm, ⟨109, _⟩ => ⟨S8192x51x1, .f32⟩
  | .hbm, ⟨110, _⟩ => ⟨S_, .f32⟩
  | .hbm, ⟨111, _⟩ => ⟨S8192x1, .f32⟩
  | .hbm, ⟨112, _⟩ => ⟨S8192x1, .f32⟩
  | .hbm, ⟨113, _⟩ => ⟨S_, .f32⟩
  | .hbm, ⟨114, _⟩ => ⟨S8192x1, .f32⟩
  | .hbm, ⟨115, _⟩ => ⟨S8192x1, .f32⟩
  | .hbm, ⟨116, _⟩ => ⟨S8192x1, .f32⟩
  | .hbm, ⟨117, _⟩ => ⟨S8192x1, .f32⟩
  | _, _ => ⟨S8192x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_cst_0 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_call0_cst : Ref sig .tc := ⟨.hbm, 24, rfl⟩
abbrev main_call0_v0 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_call1_cst : Ref sig .tc := ⟨.hbm, 31, rfl⟩
abbrev main_call1_v0 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_call2_cst : Ref sig .tc := ⟨.hbm, 38, rfl⟩
abbrev main_call2_v0 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_1 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_2 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_call3_cst : Ref sig .tc := ⟨.hbm, 67, rfl⟩
abbrev main_call3_v0 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_call4_cst : Ref sig .tc := ⟨.hbm, 74, rfl⟩
abbrev main_call4_v0 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_call5_cst : Ref sig .tc := ⟨.hbm, 81, rfl⟩
abbrev main_call5_v0 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_call6_cst : Ref sig .tc := ⟨.hbm, 88, rfl⟩
abbrev main_call6_v0 : Ref sig .tc := ⟨.hbm, 89, rfl⟩
abbrev main_call6_v1 : Ref sig .tc := ⟨.hbm, 90, rfl⟩
abbrev main_call6_cst_0 : Ref sig .tc := ⟨.hbm, 91, rfl⟩
abbrev main_call6_v2 : Ref sig .tc := ⟨.hbm, 92, rfl⟩
abbrev main_call6_v3 : Ref sig .tc := ⟨.hbm, 93, rfl⟩
abbrev main_call6_cst_1 : Ref sig .tc := ⟨.hbm, 94, rfl⟩
abbrev main_call6_call0_v0 : Ref sig .tc := ⟨.hbm, 95, rfl⟩
abbrev main_call6_call0_v1 : Ref sig .tc := ⟨.hbm, 96, rfl⟩
abbrev main_call6_v4 : Ref sig .tc := ⟨.hbm, 97, rfl⟩
abbrev main_call6_v5 : Ref sig .tc := ⟨.hbm, 98, rfl⟩
abbrev main_call6_cst_2 : Ref sig .tc := ⟨.hbm, 99, rfl⟩
abbrev main_call6_v6 : Ref sig .tc := ⟨.hbm, 100, rfl⟩
abbrev main_call6_v7 : Ref sig .tc := ⟨.hbm, 101, rfl⟩
abbrev main_v54 : Ref sig .tc := ⟨.hbm, 102, rfl⟩
abbrev main_cst_3 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_cst_4 : Ref sig .tc := ⟨.hbm, 110, rfl⟩
abbrev main_v61 : Ref sig .tc := ⟨.hbm, 111, rfl⟩
abbrev main_v62 : Ref sig .tc := ⟨.hbm, 112, rfl⟩
abbrev main_cst_5 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bcast_S2_S1x2_1 : S2.BroadcastsInDim S1x2 (![1] : Fin 1 → Fin S1x2.rank)
  bcast_S1x2_S8192x2_0_1 : S1x2.BroadcastsInDim S8192x2 (![0, 1] : Fin 2 → Fin S8192x2.rank)
  slices_S8192x2_S8192x1_0_0 : S8192x2.Slices ![0, 0] S8192x1
  slices_S8192x2_S8192x1_0_1 : S8192x2.Slices ![0, 1] S8192x1
  bcast_S8192x1_S8192x1x1_0_2 : S8192x1.BroadcastsInDim S8192x1x1 (![0, 2] : Fin 2 → Fin S8192x1x1.rank)
  bcast_S51x1_S1x51x1_1_2 : S51x1.BroadcastsInDim S1x51x1 (![1, 2] : Fin 2 → Fin S1x51x1.rank)
  bcast_S_S1x51x1 : S_.BroadcastsInDim S1x51x1 (![] : Fin 0 → Fin S1x51x1.rank)
  bcast_S8192x1x1_S8192x51x1_0_1_2 : S8192x1x1.BroadcastsInDim S8192x51x1 (![0, 1, 2] : Fin 3 → Fin S8192x51x1.rank)
  bcast_S1x51x1_S8192x51x1_0_1_2 : S1x51x1.BroadcastsInDim S8192x51x1 (![0, 1, 2] : Fin 3 → Fin S8192x51x1.rank)
  bcast_S_S8192x51x1 : S_.BroadcastsInDim S8192x51x1 (![] : Fin 0 → Fin S8192x51x1.rank)
  bcast_S8192x15_S8192x1x15_0_2 : S8192x15.BroadcastsInDim S8192x1x15 (![0, 2] : Fin 2 → Fin S8192x1x15.rank)
  bcast_S8192x1x15_S8192x51x15_0_1_2 : S8192x1x15.BroadcastsInDim S8192x51x15 (![0, 1, 2] : Fin 3 → Fin S8192x51x15.rank)
  concatenates_S8192x51x1_S8192x51x15_S8192x51x16_d2 : Shape.Concatenates [S8192x51x1, S8192x51x15] S8192x51x16 2
  shapeCasts_S8192x51x16_S417792x16 : S8192x51x16.ShapeCasts S417792x16
  bcast_S1x256_S417792x256_0_1 : S1x256.BroadcastsInDim S417792x256 (![0, 1] : Fin 2 → Fin S417792x256.rank)
  bcast_S_S417792x256 : S_.BroadcastsInDim S417792x256 (![] : Fin 0 → Fin S417792x256.rank)
  bcast_S1_S1x1_1 : S1.BroadcastsInDim S1x1 (![1] : Fin 1 → Fin S1x1.rank)
  bcast_S1x1_S417792x1_0_1 : S1x1.BroadcastsInDim S417792x1 (![0, 1] : Fin 2 → Fin S417792x1.rank)
  bcast_S_S417792x1 : S_.BroadcastsInDim S417792x1 (![] : Fin 0 → Fin S417792x1.rank)
  shapeCasts_S417792x1_S8192x51x1 : S417792x1.ShapeCasts S8192x51x1
  reducesTo_S8192x51x1_S8192x1_d1 : S8192x51x1.ReducesTo [1] S8192x1
  h_S_ : 0 < S_.numel
  bcast_S_S8192x1 : S_.BroadcastsInDim S8192x1 (![] : Fin 0 → Fin S8192x1.rank)
  dot_S8192x15_S15x256_S8192x256_1_0_0_1_n_n_wf : DotDims.WF S8192x15 S15x256 S8192x256 [1] [0] [0] [1] [] []
  dot_S8192x256_S256x256_S8192x256_1_0_0_1_n_n_wf : DotDims.WF S8192x256 S256x256 S8192x256 [1] [0] [0] [1] [] []
  dot_S8192x256_S256x2_S8192x2_1_0_0_1_n_n_wf : DotDims.WF S8192x256 S256x2 S8192x2 [1] [0] [0] [1] [] []
  dot_S417792x16_S16x256_S417792x256_1_0_0_1_n_n_wf : DotDims.WF S417792x16 S16x256 S417792x256 [1] [0] [0] [1] [] []
  dot_S417792x256_S256x256_S417792x256_1_0_0_1_n_n_wf : DotDims.WF S417792x256 S256x256 S417792x256 [1] [0] [0] [1] [] []
  dot_S417792x256_S256x1_S417792x1_1_0_0_1_n_n_wf : DotDims.WF S417792x256 S256x1 S417792x1 [1] [0] [0] [1] [] []

variable [Facts₀]

def dot_S8192x15_S15x256_S8192x256_1_0_0_1_n_n : DotDims S8192x15 S15x256 S8192x256 where
  lhsContracting := [1]
  rhsContracting := [0]
  lhsNonContracting := [0]
  rhsNonContracting := [1]
  lhsBatch := []
  rhsBatch := []
  wf := dot_S8192x15_S15x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x2_S8192x2_1_0_0_1_n_n : DotDims S8192x256 S256x2 S8192x2 where
  lhsContracting := [1]
  rhsContracting := [0]
  lhsNonContracting := [0]
  rhsNonContracting := [1]
  lhsBatch := []
  rhsBatch := []
  wf := dot_S8192x256_S256x2_S8192x2_1_0_0_1_n_n_wf
def dot_S417792x16_S16x256_S417792x256_1_0_0_1_n_n : DotDims S417792x16 S16x256 S417792x256 where
  lhsContracting := [1]
  rhsContracting := [0]
  lhsNonContracting := [0]
  rhsNonContracting := [1]
  lhsBatch := []
  rhsBatch := []
  wf := dot_S417792x16_S16x256_S417792x256_1_0_0_1_n_n_wf
def dot_S417792x256_S256x256_S417792x256_1_0_0_1_n_n : DotDims S417792x256 S256x256 S417792x256 where
  lhsContracting := [1]
  rhsContracting := [0]
  lhsNonContracting := [0]
  rhsNonContracting := [1]
  lhsBatch := []
  rhsBatch := []
  wf := dot_S417792x256_S256x256_S417792x256_1_0_0_1_n_n_wf
def dot_S417792x256_S256x1_S417792x1_1_0_0_1_n_n : DotDims S417792x256 S256x1 S417792x1 where
  lhsContracting := [1]
  rhsContracting := [0]
  lhsNonContracting := [0]
  rhsNonContracting := [1]
  lhsBatch := []
  rhsBatch := []
  wf := dot_S417792x256_S256x1_S417792x1_1_0_0_1_n_n_wf

class Facts : Prop extends Facts₀ where

variable [Facts]
-- ==== Proof.Spec.lean ====
import Idealize.ShloMosaic.Lib.ValueIdx
import Idealize.ShloMosaic.Lib.ValueLayout
import Idealize.ShloMosaic.Lib.KernelVsHost
import Idealize.ShloMosaic.Lib.IdealHost
import Idealize.ShloMosaic.PureOps.Ideal.Laws

noncomputable section

open scoped BigOperators
open Idealize.ShloMosaic Idealize.ShloMosaic.ValueIdx

namespace Cert.Mnn

/-! ## Rows, dense layers and the rectifier on the extended reals -/

/-- Row `i` of a matrix, as a function of the column. -/
def rowOf {α : Type} {M K : ℕ} (X : (⟨2, ![M, K]⟩ : Shape).Idx → α) (i : Fin M) : Fin K → α := fun k => X (ix2 i k)

/-- One dense layer applied to a row: `z ↦ z · W + b`. -/
def lin {K N : ℕ} (z : Fin K → EReal) (W : (⟨2, ![K, N]⟩ : Shape).Idx → EReal) (b : Fin N → EReal) : Fin N → EReal :=
  fun j => (∑ k : Fin K, z k * W (ix2 k j)) + b j

/-- The rectifier, entry by entry (its zero is the f32 zero word read at the ideal instance). -/
def relu {N : ℕ} (v : Fin N → EReal) : Fin N → EReal := fun j => max (v j) (Ideal.ofBits .f32 0x00000000#32)

/-! ## A plain matrix product read at an entry -/

/-- The dimension numbers of `M×K` by `K×N` with no batch axis. -/
structure IsPlain {M K N : ℕ} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

theorem IsPlain.eq_plain {M K N : ℕ} {d : DotDims ⟨2, ![M, K]⟩ ⟨2, ![K, N]⟩ ⟨2, ![M, N]⟩} (h : IsPlain d) :
    d = DotDims.plain M K N := by
  obtain ⟨lc, rc, ln, rn, lb, rb, wf⟩ := d
  obtain ⟨h1, h2, h3, h4, h5, h6⟩ := h
  simp only at h1 h2 h3 h4 h5 h6
  subst h1 h2 h3 h4 h5 h6
  rfl

/-- The contraction of a plain product is a sum over the shared extent. -/
theorem plain_sum (M K N : ℕ) (l : (⟨2, ![M, K]⟩ : Shape).Idx → EReal) (r : (⟨2, ![K, N]⟩ : Shape).Idx → EReal)
    (i : Fin M) (j : Fin N) :
    ∑ k : (DotDims.plain M K N).contr.Idx, l ((DotDims.plain M K N).lhsIdx (ix2 i j) k) * r ((DotDims.plain M K N).rhsIdx (ix2 i j) k)
      = ∑ k : Fin K, l (ix2 i k) * r (ix2 k j) := by
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun k _ => ?_
  have hl : (DotDims.plain M K N).lhsIdx (ix2 i j) ((contrEquiv1 (DotDims.plain M K N) K hr hs).symm k) = ix2 i k := by
    funext a; apply Fin.ext
    match a with
    | ⟨0, _⟩ => rfl
    | ⟨1, _⟩ =>
      exact ((DotDims.plain M K N).lhsIdx_val_of_single (cl := (1 : Fin 2)) rfl _ _).trans
        (contrEquiv1_symm_val (DotDims.plain M K N) K hr hs k)
  have hr' : (DotDims.plain M K N).rhsIdx (ix2 i j) ((contrEquiv1 (DotDims.plain M K N) K hr hs).symm k) = ix2 k j := by
    funext a; apply Fin.ext
    match a with
    | ⟨0, _⟩ =>
      exact ((DotDims.plain M K N).rhsIdx_val_of_single (cr := (0 : Fin 2)) rfl _ _).trans
        (contrEquiv1_symm_val (DotDims.plain M K N) K hr hs k)
    | ⟨1, _⟩ => rfl
  rw [hl, hr']

variable {φ₁ φ₂ : FTy}

/-- The host's product of two matrices, read at an entry. -/
theorem dot_entry {M K N : ℕ} (d : DotDims ⟨2, ![M, K]⟩ ⟨2, ![K, N]⟩ ⟨2, ![M, N]⟩) (hd : IsPlain d)
    (A : FVec Ideal ⟨2, ![M, K]⟩ φ₁) (W : FVec Ideal ⟨2, ![K, N]⟩ φ₂) (i : Fin M) (j : Fin N) :
    Host.dotGeneral d none A W (ix2 i j) = ∑ k : Fin K, A (ix2 i k) * W (ix2 k j) := by
  obtain rfl := hd.eq_plain
  show FloatOps.dotGeneral _ none _ A W (ix2 i j) = _
  rw [Ideal.dotGeneral_apply]
  exact plain_sum M K N A W i j

/-- The kernel's product into a zero accumulator, read at an entry. -/
theorem matmul_entry {M K N : ℕ} (d : DotDims ⟨2, ![M, K]⟩ ⟨2, ![K, N]⟩ ⟨2, ![M, N]⟩) (hd : IsPlain d)
    (A : FVec Ideal ⟨2, ![M, K]⟩ φ₁) (W : FVec Ideal ⟨2, ![K, N]⟩ φ₂) (i : Fin M) (j : Fin N) :
    matmul d none A W (constant ⟨2, ![M, N]⟩ .f32 0x00000000#32) (ix2 i j) = ∑ k : Fin K, A (ix2 i k) * W (ix2 k j) := by
  rw [matmul_zero_eq_dotGeneral]
  exact dot_entry d hd A W i j

/-- A change of float format is the identity on the extended reals. -/
theorem truncf_id {s : Shape} {φ ψ : FTy} (x : FVec Ideal s φ) (h : ψ.bits < φ.bits) :
    (truncf ψ x h : FVec Ideal s ψ) = x := rfl

/-- A vector laid along the one row of a matrix, read at a column. -/
theorem bcast_vec_row {N : ℕ} {α : Type} (b : (⟨1, ![N]⟩ : Shape).Idx → α)
    (h1 : (⟨1, ![N]⟩ : Shape).BroadcastsInDim ⟨2, ![1, N]⟩ ![1]) (u : Fin 1) (j : Fin N) :
    broadcastInDim ⟨2, ![1, N]⟩ ![1] h1 b (ix2 u j) = b (ix1 j) := by
  refine broadcastInDim_apply ![1] h1 b (ix2 u j) (ix1 j) ?_
  intro a
  match a with
  | ⟨0, _⟩ =>
    show j.val = if N = 1 then 0 else j.val
    split
    · have := j.isLt; omega
    · rfl

/-! ## One layer, row by row: the kernel's text and the host's -/

/-- The kernel's layer with a rectifier: row `i` of `max (A · W + bias) 0` is the rectified dense layer of row `i` of `A`. -/
theorem kHid {M K N : ℕ} (d : DotDims ⟨2, ![M, K]⟩ ⟨2, ![K, N]⟩ ⟨2, ![M, N]⟩) (hd : IsPlain d)
    (A : FVec Ideal ⟨2, ![M, K]⟩ φ₁) (W : FVec Ideal ⟨2, ![K, N]⟩ φ₂) (bias : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (i : Fin M) :
    rowOf (maximumf (addf (matmul d none A W (constant ⟨2, ![M, N]⟩ .f32 0x00000000#32))
        (broadcastTo ⟨2, ![M, N]⟩ (shapeCast ⟨2, ![1, N]⟩ bias hc) hb)) (broadcast ⟨2, ![M, N]⟩ (Scalar.ofBits .f32 0x00000000#32))) i
      = relu (lin (rowOf A i) W (rowOf bias 0)) := by
  funext j
  show max (matmul d none A W (constant ⟨2, ![M, N]⟩ .f32 0x00000000#32) (ix2 i j)
      + broadcastTo ⟨2, ![M, N]⟩ (shapeCast ⟨2, ![1, N]⟩ bias hc) hb (ix2 i j)) _ = _
  rw [matmul_entry d hd, shapeCast_self, broadcastTo_1b_ab_apply]
  rfl

/-- The kernel's layer without a rectifier. -/
theorem kLin {M K N : ℕ} (d : DotDims ⟨2, ![M, K]⟩ ⟨2, ![K, N]⟩ ⟨2, ![M, N]⟩) (hd : IsPlain d)
    (A : FVec Ideal ⟨2, ![M, K]⟩ φ₁) (W : FVec Ideal ⟨2, ![K, N]⟩ φ₂) (bias : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (i : Fin M) :
    rowOf (addf (matmul d none A W (constant ⟨2, ![M, N]⟩ .f32 0x00000000#32))
        (broadcastTo ⟨2, ![M, N]⟩ (shapeCast ⟨2, ![1, N]⟩ bias hc) hb)) i
      = lin (rowOf A i) W (rowOf bias 0) := by
  funext j
  show matmul d none A W (constant ⟨2, ![M, N]⟩ .f32 0x00000000#32) (ix2 i j)
      + broadcastTo ⟨2, ![M, N]⟩ (shapeCast ⟨2, ![1, N]⟩ bias hc) hb (ix2 i j) = _
  rw [matmul_entry d hd, shapeCast_self, broadcastTo_1b_ab_apply]
  rfl

/-- The host's layer with a rectifier. -/
theorem hHid {M K N : ℕ} (d : DotDims ⟨2, ![M, K]⟩ ⟨2, ![K, N]⟩ ⟨2, ![M, N]⟩) (hd : IsPlain d)
    (A : FVec Ideal ⟨2, ![M, K]⟩ φ₁) (W : FVec Ideal ⟨2, ![K, N]⟩ φ₂) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (i : Fin M) :
    rowOf (maximumf (addf (Host.dotGeneral d none A W)
        (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))) i
      = relu (lin (rowOf A i) W (fun j => b (ix1 j))) := by
  funext j
  show max (Host.dotGeneral d none A W (ix2 i j)
      + broadcastInDim ⟨2, ![M, N]⟩ ![0, 1] h2 (broadcastInDim ⟨2, ![1, N]⟩ ![1] h1 b) (ix2 i j))
      (broadcastInDim ⟨2, ![M, N]⟩ ![] h0 (constant (F := Ideal) ⟨0, ![]⟩ .f32 0x00000000#32) (ix2 i j)) = _
  rw [dot_entry d hd, broadcastInDim_oneRow_apply, bcast_vec_row, broadcastInDim_scalar_apply]
  rfl

/-- The host's layer without a rectifier. -/
theorem hLin {M K N : ℕ} (d : DotDims ⟨2, ![M, K]⟩ ⟨2, ![K, N]⟩ ⟨2, ![M, N]⟩) (hd : IsPlain d)
    (A : FVec Ideal ⟨2, ![M, K]⟩ φ₁) (W : FVec Ideal ⟨2, ![K, N]⟩ φ₂) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (i : Fin M) :
    rowOf (addf (Host.dotGeneral d none A W)
        (broadcastInDim ⟨2, ![M, N]⟩ ![0, 1] h2 (broadcastInDim ⟨2, ![1, N]⟩ ![1] h1 b))) i
      = lin (rowOf A i) W (fun j => b (ix1 j)) := by
  funext j
  show Host.dotGeneral d none A W (ix2 i j)
      + broadcastInDim ⟨2, ![M, N]⟩ ![0, 1] h2 (broadcastInDim ⟨2, ![1, N]⟩ ![1] h1 b) (ix2 i j) = _
  rw [dot_entry d hd, broadcastInDim_oneRow_apply, bcast_vec_row]
  rfl

/-! ## Rows of a matrix that is a rank-three array with its two leading axes merged -/

/-- Row `a · B + b` of the merged matrix is the fibre `(a, b, ·)` of the array. -/
theorem cast32 {α : Type} {A B C R : ℕ} (X : (⟨3, ![A, B, C]⟩ : Shape).Idx → α)
    (h : (⟨3, ![A, B, C]⟩ : Shape).ShapeCasts ⟨2, ![R, C]⟩) (a : Fin A) (b : Fin B) (c : Fin C) (q : Fin R)
    (hq : q.val = a.val * B + b.val) : shapeCast ⟨2, ![R, C]⟩ X h (ix2 q c) = X (ix3 a b c) :=
  shapeCast_apply X h _ _ (by
    rw [Shape.rowMajor_val_three, Shape.rowMajor_val_two]
    show (a.val * B + b.val) * C + c.val = q.val * C + c.val
    rw [hq])

/-- The other way: entry `(a, b, c)` of a matrix split along its rows is its entry `(a · B + b, c)`. -/
theorem cast23 {α : Type} {A B C R : ℕ} (Y : (⟨2, ![R, C]⟩ : Shape).Idx → α)
    (h : (⟨2, ![R, C]⟩ : Shape).ShapeCasts ⟨3, ![A, B, C]⟩) (a : Fin A) (b : Fin B) (c : Fin C) (q : Fin R)
    (hq : q.val = a.val * B + b.val) : shapeCast ⟨3, ![A, B, C]⟩ Y h (ix3 a b c) = Y (ix2 q c) :=
  shapeCast_apply Y h _ _ (by
    rw [Shape.rowMajor_val_three, Shape.rowMajor_val_two]
    show q.val * C + c.val = (a.val * B + b.val) * C + c.val
    rw [hq])

theorem rowOf_cast32 {α : Type} {A B C R : ℕ} (X : (⟨3, ![A, B, C]⟩ : Shape).Idx → α)
    (h : (⟨3, ![A, B, C]⟩ : Shape).ShapeCasts ⟨2, ![R, C]⟩) (a : Fin A) (b : Fin B) (q : Fin R)
    (hq : q.val = a.val * B + b.val) : rowOf (shapeCast ⟨2, ![R, C]⟩ X h) q = fun c => X (ix3 a b c) :=
  funext fun c => cast32 X h a b c q hq

/-! ## Copies along a leading unit axis -/

/-- A `[1, B, C]` array copied along `A` leading positions (the kernel's broadcast). -/
theorem bcastTo_1bc {α : Type} {A B C : ℕ} (v : (⟨3, ![1, B, C]⟩ : Shape).Idx → α)
    (h : (⟨3, ![1, B, C]⟩ : Shape).Broadcasts ⟨3, ![A, B, C]⟩) (a : Fin A) (b : Fin B) (c : Fin C) :
    broadcastTo ⟨3, ![A, B, C]⟩ v h (ix3 a b c) = v (ix3 (0 : Fin 1) b c) := by
  refine broadcastTo_apply v h (ix3 a b c) (ix3 (0 : Fin 1) b c) fun ax => ?_
  match ax with
  | ⟨0, _⟩ => rfl
  | ⟨1, _⟩ =>
    show b.val = if B = 1 then 0 else b.val
    split
    · have := b.isLt; omega
    · rfl
  | ⟨2, _⟩ =>
    show c.val = if C = 1 then 0 else c.val
    split
    · have := c.isLt; omega
    · rfl

/-- The same copy as the host spells it. -/
theorem bcastDim_1bc {α : Type} {A B C : ℕ} (v : (⟨3, ![1, B, C]⟩ : Shape).Idx → α)
    (h : (⟨3, ![1, B, C]⟩ : Shape).BroadcastsInDim ⟨3, ![A, B, C]⟩ ![0, 1, 2]) (a : Fin A) (b : Fin B) (c : Fin C) :
    broadcastInDim ⟨3, ![A, B, C]⟩ ![0, 1, 2] h v (ix3 a b c) = v (ix3 (0 : Fin 1) b c) := by
  refine broadcastInDim_apply ![0, 1, 2] h v (ix3 a b c) (ix3 (0 : Fin 1) b c) fun ax => ?_
  match ax with
  | ⟨0, _⟩ => rfl
  | ⟨1, _⟩ =>
    show b.val = if B = 1 then 0 else b.val
    split
    · have := b.isLt; omega
    · rfl
  | ⟨2, _⟩ =>
    show c.val = if C = 1 then 0 else c.val
    split
    · have := c.isLt; omega
    · rfl

/-- A matrix given a leading unit axis by the host's broadcast. -/
theorem bcastDim_bc_1bc {α : Type} {B C : ℕ} (v : (⟨2, ![B, C]⟩ : Shape).Idx → α)
    (h : (⟨2, ![B, C]⟩ : Shape).BroadcastsInDim ⟨3, ![1, B, C]⟩ ![1, 2]) (u : Fin 1) (b : Fin B) (c : Fin C) :
    broadcastInDim ⟨3, ![1, B, C]⟩ ![1, 2] h v (ix3 u b c) = v (ix2 b c) := by
  refine broadcastInDim_apply ![1, 2] h v (ix3 u b c) (ix2 b c) fun ax => ?_
  match ax with
  | ⟨0, _⟩ =>
    show b.val = if B = 1 then 0 else b.val
    split
    · have := b.isLt; omega
    · rfl
  | ⟨1, _⟩ =>
    show c.val = if C = 1 then 0 else c.val
    split
    · have := c.isLt; omega
    · rfl

/-! ## A sum along the middle axis -/

/-- The kernel's sum over the middle axis of an `[M, B, 1]` array. -/
theorem sum_axis1 {M B : ℕ} (src : FVec Ideal ⟨3, ![M, B, 1]⟩ .f32)
    (h : (⟨3, ![M, B, 1]⟩ : Shape).Reduces [1] ⟨2, ![M, 1]⟩) (hφ : FKind.Formats .f32)
    (hacc : (0x00000000#32 : BitVec 32) = 0x00000000#32) (p : Fin M) (u : Fin 1) :
    multiReduction .add [1] ⟨2, ![M, 1]⟩ src 0x00000000#32 h hφ hacc (ix2 p u) = ∑ s : Fin B, src (ix3 p s u) := by
  refine (Ideal.multiReduction_add_single src 0x00000000#32 h hφ hacc (ix2 p u)).trans ?_
  refine Finset.sum_congr rfl fun k _ => congrArg src ?_
  funext a; apply Fin.ext
  match a with
  | ⟨0, _⟩ => rfl
  | ⟨1, _⟩ => rfl
  | ⟨2, _⟩ => rfl

/-- The host's sum over the middle axis from an initial value. -/
theorem hsum_axis1 {M B : ℕ} (x : FVec Ideal ⟨3, ![M, B, 1]⟩ .f32) (init : FVec Ideal ⟨0, ![]⟩ .f32)
    (h' : (⟨3, ![M, B, 1]⟩ : Shape).ReducesTo [1] ⟨2, ![M, 1]⟩) (h : (⟨3, ![M, B, 1]⟩ : Shape).Reduces [1] ⟨2, ![M, 1]⟩)
    (hu : 0 < (⟨0, ![]⟩ : Shape).numel) (p : Fin M) (u : Fin 1) :
    Host.reduceAdd x init h' hu (ix2 p u) = init ix0 + ∑ s : Fin B, x (ix3 p s u) := by
  rw [hostReduceAdd_apply, Ideal.hostReduceAdd_single h' h, eq_ix0 (Shape.Idx.first hu)]
  refine congrArg (init ix0 + ·) (Finset.sum_congr rfl fun k _ => congrArg x ?_)
  funext a; apply Fin.ext
  match a with
  | ⟨0, _⟩ => rfl
  | ⟨1, _⟩ => rfl
  | ⟨2, _⟩ => rfl

/-! ## The exponential linear unit plus one -/

/-- `z ↦ (z if z > 0 else e^z − 1) + 1`, with the f32 words of zero and one read at the ideal instance. -/
def elu1 (z : EReal) : EReal :=
  Scalar.select (Ideal.cmp .ogt z (Ideal.ofBits .f32 0x00000000#32)) z (Ideal.exp z - Ideal.ofBits .f32 0x3F800000#32)
    + Ideal.ofBits .f32 0x3F800000#32

/-- The f32 word `0x3F800000` is the real number one. -/
theorem one_f32 : Ideal.ofBits .f32 0x3F800000#32 = 1 := IdealRules.sign_bit.ideal_onePat .f32

/-- The kernel's spelling: a select between `z` and `e^z − 1`. -/
theorem kElu {s : Shape} (z : FVec Ideal s .f32) (i : s.Idx) :
    addf (select (cmpf .ogt z (broadcast s (Scalar.ofBits .f32 0x00000000#32))) z
        (subf (exp z) (broadcast s (Scalar.ofBits .f32 0x3F800000#32))))
      (broadcast s (Scalar.ofBits .f32 0x3F800000#32)) i = elu1 (z i) := rfl

/-- The host's spelling: `1 · expm1` of the argument with its positive entries zeroed, selected where the argument is
    not positive. Where the outer select takes that branch the inner one returns the argument, and `expm1 z = e^z − 1`. -/
theorem hElu {R : ℕ} (z : FVec Ideal ⟨2, ![R, 1]⟩ .f32) (h0 : (⟨0, ![]⟩ : Shape).BroadcastsInDim ⟨2, ![R, 1]⟩ ![])
    (i : (⟨2, ![R, 1]⟩ : Shape).Idx) :
    addf (select (cmpf .ogt z (broadcastInDim ⟨2, ![R, 1]⟩ ![] h0 (constant (F := Ideal) ⟨0, ![]⟩ .f32 0x00000000#32))) z
        (mulf (broadcastInDim ⟨2, ![R, 1]⟩ ![] h0 (constant (F := Ideal) ⟨0, ![]⟩ .f32 0x3F800000#32))
          (Host.expm1 (select (cmpf .ogt z (broadcastInDim ⟨2, ![R, 1]⟩ ![] h0 (constant (F := Ideal) ⟨0, ![]⟩ .f32 0x00000000#32)))
            (broadcastInDim ⟨2, ![R, 1]⟩ ![] h0 (id (constant (F := Ideal) ⟨0, ![]⟩ .f32 0x00000000#32))) z))))
      (broadcastInDim ⟨2, ![R, 1]⟩ ![] h0 (constant (F := Ideal) ⟨0, ![]⟩ .f32 0x3F800000#32)) i = elu1 (z i) := by
  show Scalar.select (Ideal.cmp .ogt (z i) (broadcastInDim ⟨2, ![R, 1]⟩ ![] h0 (constant (F := Ideal) ⟨0, ![]⟩ .f32 0x00000000#32) i)) (z i)
      (broadcastInDim ⟨2, ![R, 1]⟩ ![] h0 (constant (F := Ideal) ⟨0, ![]⟩ .f32 0x3F800000#32) i
        * (Ideal.exp (Scalar.select (Ideal.cmp .ogt (z i) (broadcastInDim ⟨2, ![R, 1]⟩ ![] h0 (constant (F := Ideal) ⟨0, ![]⟩ .f32 0x00000000#32) i))
            (broadcastInDim ⟨2, ![R, 1]⟩ ![] h0 (id (constant (F := Ideal) ⟨0, ![]⟩ .f32 0x00000000#32)) i) (z i)) - 1))
      + broadcastInDim ⟨2, ![R, 1]⟩ ![] h0 (constant (F := Ideal) ⟨0, ![]⟩ .f32 0x3F800000#32) i = _
  simp only [broadcastInDim_scalar_apply, id]
  show Scalar.select (Ideal.cmp .ogt (z i) (Ideal.ofBits .f32 0x00000000#32)) (z i)
      (Ideal.ofBits .f32 0x3F800000#32
        * (Ideal.exp (Scalar.select (Ideal.cmp .ogt (z i) (Ideal.ofBits .f32 0x00000000#32)) (Ideal.ofBits .f32 0x00000000#32) (z i)) - 1))
      + Ideal.ofBits .f32 0x3F800000#32 = elu1 (z i)
  unfold elu1
  rw [one_f32]
  by_cases hc : Ideal.cmp .ogt (z i) (Ideal.ofBits .f32 0x00000000#32) = 1#1
  · rw [hc, select_one, select_one]
  · rw [eq_zero_of_ne_one hc, select_zero, select_zero, select_zero, one_mul]

/-! ## The network on one batch row -/

/-- The weights and biases of both networks and the quadrature weights, entry by entry. -/
structure Params where
  iw0 : (⟨2, ![16, 256]⟩ : Shape).Idx → EReal
  ib0 : Fin 256 → EReal
  iw1 : (⟨2, ![256, 256]⟩ : Shape).Idx → EReal
  ib1 : Fin 256 → EReal
  iw2 : (⟨2, ![256, 256]⟩ : Shape).Idx → EReal
  ib2 : Fin 256 → EReal
  iw3 : (⟨2, ![256, 1]⟩ : Shape).Idx → EReal
  ib3 : Fin 1 → EReal
  hw0 : (⟨2, ![15, 256]⟩ : Shape).Idx → EReal
  hb0 : Fin 256 → EReal
  hw1 : (⟨2, ![256, 256]⟩ : Shape).Idx → EReal
  hb1 : Fin 256 → EReal
  hw2 : (⟨2, ![256, 256]⟩ : Shape).Idx → EReal
  hb2 : Fin 256 → EReal
  hw3 : (⟨2, ![256, 2]⟩ : Shape).Idx → EReal
  hb3 : Fin 2 → EReal
  ccw : Fin 51 → EReal

/-- The parameters read off the argument arrays (each bias a vector) and the table of quadrature weights. -/
def paramsOf (iw0 : (⟨2, ![16, 256]⟩ : Shape).Idx → EReal) (ib0 : (⟨1, ![256]⟩ : Shape).Idx → EReal)
    (iw1 : (⟨2, ![256, 256]⟩ : Shape).Idx → EReal) (ib1 : (⟨1, ![256]⟩ : Shape).Idx → EReal)
    (iw2 : (⟨2, ![256, 256]⟩ : Shape).Idx → EReal) (ib2 : (⟨1, ![256]⟩ : Shape).Idx → EReal)
    (iw3 : (⟨2, ![256, 1]⟩ : Shape).Idx → EReal) (ib3 : (⟨1, ![1]⟩ : Shape).Idx → EReal)
    (hw0 : (⟨2, ![15, 256]⟩ : Shape).Idx → EReal) (hb0 : (⟨1, ![256]⟩ : Shape).Idx → EReal)
    (hw1 : (⟨2, ![256, 256]⟩ : Shape).Idx → EReal) (hb1 : (⟨1, ![256]⟩ : Shape).Idx → EReal)
    (hw2 : (⟨2, ![256, 256]⟩ : Shape).Idx → EReal) (hb2 : (⟨1, ![256]⟩ : Shape).Idx → EReal)
    (hw3 : (⟨2, ![256, 2]⟩ : Shape).Idx → EReal) (hb3 : (⟨1, ![2]⟩ : Shape).Idx → EReal)
    (ccw : (⟨2, ![51, 1]⟩ : Shape).Idx → EReal) : Params where
  iw0 := iw0
  ib0 := fun j => ib0 (ix1 j)
  iw1 := iw1
  ib1 := fun j => ib1 (ix1 j)
  iw2 := iw2
  ib2 := fun j => ib2 (ix1 j)
  iw3 := iw3
  ib3 := fun j => ib3 (ix1 j)
  hw0 := hw0
  hb0 := fun j => hb0 (ix1 j)
  hw1 := hw1
  hb1 := fun j => hb1 (ix1 j)
  hw2 := hw2
  hb2 := fun j => hb2 (ix1 j)
  hw3 := hw3
  hb3 := fun j => hb3 (ix1 j)
  ccw := fun s => ccw (ix2 s (0 : Fin 1))

/-- The integrand network before its last nonlinearity, on one quadrature point's sixteen inputs. -/
def Params.zf (P : Params) (row : Fin 16 → EReal) : EReal :=
  lin (relu (lin (relu (lin (relu (lin row P.iw0 P.ib0)) P.iw1 P.ib1)) P.iw2 P.ib2)) P.iw3 P.ib3 0

/-- The conditioner network on one batch row's fifteen features: offset and log-scale. -/
def Params.cond (P : Params) (hrow : Fin 15 → EReal) : Fin 2 → EReal :=
  lin (relu (lin (relu (lin (relu (lin hrow P.hw0 P.hb0)) P.hw1 P.hb1)) P.hw2 P.hb2)) P.hw3 P.hb3

/-- One batch row's result: `exp(log-scale) · ((Σₛ f(pointₛ) · wₛ) · x · ½) + offset`. -/
def Params.out (P : Params) (xr : EReal) (hrow : Fin 15 → EReal) (xh : Fin 51 → Fin 16 → EReal) : EReal :=
  Ideal.exp (P.cond hrow 1) * ((∑ s : Fin 51, elu1 (P.zf (xh s)) * P.ccw s) * xr * Ideal.ofBits .f32 0x3F000000#32)
    + P.cond hrow 0

/-- The whole result array: row `r` from `x r`, the features of row `r` and the quadrature points of row `r`. -/
def G (P : Params) (x : (⟨2, ![8192, 1]⟩ : Shape).Idx → EReal) (h : (⟨2, ![8192, 15]⟩ : Shape).Idx → EReal)
    (xh : (⟨3, ![8192, 51, 16]⟩ : Shape).Idx → EReal) : (⟨2, ![8192, 1]⟩ : Shape).Idx → EReal :=
  fun i => P.out (x (ix2 (i 0 : Fin 8192) (0 : Fin 1))) (rowOf h (i 0 : Fin 8192)) (fun s d => xh (ix3 (i 0 : Fin 8192) s d))

end Cert.Mnn

end
-- ==== Proof.KernelPayload.lean ====
import proofs.«157733_j5755256177212_1_alg».proof.Proof.Gen.KernelIdeal.Skeleton
import proofs.«157733_j5755256177212_1_alg».proof.Proof.Spec

noncomputable section

open scoped BigOperators
open Idealize.ShloMosaic Idealize.ShloMosaic.ValueIdx

namespace Cert.KernelIdeal.Payload

open Cert.KernelIdeal Cert.KernelIdeal.Gen Cert.Mnn

/-- The weights as one grid point finds them: each weight block whole, each bias the one row of its `[1, n]` block. -/
def blkParams (x3 : Vec Ideal S16x256 .f32) (x4 : Vec Ideal S1x256 .f32) (x5 : Vec Ideal S256x256 .f32)
    (x6 : Vec Ideal S1x256 .f32) (x7 : Vec Ideal S256x256 .f32) (x8 : Vec Ideal S1x256 .f32) (x9 : Vec Ideal S256x1 .f32)
    (x10 : Vec Ideal S1x1 .f32) (x11 : Vec Ideal S15x256 .f32) (x12 : Vec Ideal S1x256 .f32) (x13 : Vec Ideal S256x256 .f32)
    (x14 : Vec Ideal S1x256 .f32) (x15 : Vec Ideal S256x256 .f32) (x16 : Vec Ideal S1x256 .f32) (x17 : Vec Ideal S256x2 .f32)
    (x18 : Vec Ideal S1x2 .f32) (x19 : Vec Ideal S51x1 .f32) : Params where
  iw0 := x3
  ib0 := rowOf x4 0
  iw1 := x5
  ib1 := rowOf x6 0
  iw2 := x7
  ib2 := rowOf x8 0
  iw3 := x9
  ib3 := rowOf x10 0
  hw0 := x11
  hb0 := rowOf x12 0
  hw1 := x13
  hb1 := rowOf x14 0
  hw2 := x15
  hb2 := rowOf x16 0
  hw3 := x17
  hb3 := rowOf x18 0
  ccw := fun s => x19 (ix2 s 0)

theorem plain1 : IsPlain (M := 3264) (K := 16) (N := 256) dot_S3264x16_S16x256_S3264x256_1_0_0_1_n_n := ⟨rfl, rfl, rfl, rfl, rfl, rfl⟩
theorem plain2 : IsPlain (M := 3264) (K := 256) (N := 256) dot_S3264x256_S256x256_S3264x256_1_0_0_1_n_n := ⟨rfl, rfl, rfl, rfl, rfl, rfl⟩
theorem plain3 : IsPlain (M := 3264) (K := 256) (N := 1) dot_S3264x256_S256x1_S3264x1_1_0_0_1_n_n := ⟨rfl, rfl, rfl, rfl, rfl, rfl⟩
theorem plain4 : IsPlain (M := 64) (K := 15) (N := 256) dot_S64x15_S15x256_S64x256_1_0_0_1_n_n := ⟨rfl, rfl, rfl, rfl, rfl, rfl⟩
theorem plain5 : IsPlain (M := 64) (K := 256) (N := 256) dot_S64x256_S256x256_S64x256_1_0_0_1_n_n := ⟨rfl, rfl, rfl, rfl, rfl, rfl⟩
theorem plain6 : IsPlain (M := 64) (K := 256) (N := 2) dot_S64x256_S256x2_S64x2_1_0_0_1_n_n := ⟨rfl, rfl, rfl, rfl, rfl, rfl⟩

/-- Three hidden layers of the integrand network on the quadrature row `p · 51 + s` of a block. -/
theorem pay2_row (x0 : Vec Ideal S64x51x16 .f32) (x3 : Vec Ideal S16x256 .f32) (x4 : Vec Ideal S1x256 .f32)
    (x5 : Vec Ideal S256x256 .f32) (x6 : Vec Ideal S1x256 .f32) (x7 : Vec Ideal S256x256 .f32) (x8 : Vec Ideal S1x256 .f32)
    (p : Fin 64) (s : Fin 51) (q : Fin 3264) (hq : q.val = p.val * 51 + s.val) :
    rowOf (k0_pay2 x0 x3 x4 x5 x6 x7 x8) q
      = relu (lin (relu (lin (relu (lin (fun d => x0 (ix3 p s d)) x3 (rowOf x4 0))) x5 (rowOf x6 0))) x7 (rowOf x8 0)) := by
  unfold k0_pay2
  dsimp only
  simp only [truncf_id]
  rw [kHid _ plain2, kHid _ plain2, kHid _ plain1, shapeCast_self, rowOf_cast32 _ _ p s q hq]

theorem pay2_row' (x0 : Vec Ideal S64x51x16 .f32) (x3 : Vec Ideal S16x256 .f32) (x4 : Vec Ideal S1x256 .f32)
    (x5 : Vec Ideal S256x256 .f32) (x6 : Vec Ideal S1x256 .f32) (x7 : Vec Ideal S256x256 .f32) (x8 : Vec Ideal S1x256 .f32)
    (p : Fin 64) (s : Fin 51) (hlt : p.val * 51 + s.val < 3264) :
    rowOf (k0_pay2 x0 x3 x4 x5 x6 x7 x8) (⟨p.val * 51 + s.val, hlt⟩ : Fin 3264)
      = relu (lin (relu (lin (relu (lin (fun d => x0 (ix3 p s d)) x3 (rowOf x4 0))) x5 (rowOf x6 0))) x7 (rowOf x8 0)) :=
  pay2_row x0 x3 x4 x5 x6 x7 x8 p s _ rfl

/-- The first hidden layer of the conditioner network on row `p` of a block. -/
theorem pay5_row (x1 : Vec Ideal S64x15 .f32) (x11 : Vec Ideal S15x256 .f32) (x12 : Vec Ideal S1x256 .f32) (p : Fin 64) :
    rowOf (k0_pay5 x1 x11 x12) p = relu (lin (rowOf x1 p) x11 (rowOf x12 0)) := by
  unfold k0_pay5
  dsimp only
  simp only [truncf_id]
  rw [kHid _ plain4]

/-- The integrand's last layer, the exponential linear unit and the quadrature sum on row `p` of a block, scaled by `x / 2`. -/
theorem pay4_entry (v33 : FVec Ideal S3264x256 .bf16) (v35 : FVec Ideal S256x1 .bf16) (x10 : Vec Ideal S1x1 .f32)
    (x19 : Vec Ideal S51x1 .f32) (x2 : Vec Ideal S64x1 .f32) (p : Fin 64) (u : Fin 1) :
    k0_pay4 v33 v35 x10 x19 x2 (ix2 p u)
      = (∑ s : Fin 51, elu1 (lin (rowOf v33 (⟨p.val * 51 + s.val, by omega⟩ : Fin 3264)) v35 (rowOf x10 0) u) * x19 (ix2 s u))
          * x2 (ix2 p u) * Ideal.ofBits .f32 0x3F000000#32 := by
  unfold k0_pay4
  dsimp only
  change _ * x2 (ix2 p u) * Ideal.ofBits .f32 0x3F000000#32 = _
  refine (congrArg (· * x2 (ix2 p u) * Ideal.ofBits .f32 0x3F000000#32) (sum_axis1 _ _ _ _ p u)).trans ?_
  refine congrArg (· * x2 (ix2 p u) * Ideal.ofBits .f32 0x3F000000#32) (Finset.sum_congr rfl fun s _ => ?_)
  show shapeCast S64x51x1 _ shapeCasts_S3264x1_S64x51x1 (ix3 p s u)
      * broadcastTo S64x51x1 (shapeCast S1x51x1 x19 shapeCasts_S51x1_S1x51x1) broadcasts_S1x51x1_S64x51x1 (ix3 p s u) = _
  rw [cast23 _ _ p s u (⟨p.val * 51 + s.val, by omega⟩ : Fin 3264) rfl, kElu, bcastTo_1bc, shapeCast_ab_1ab_apply]
  refine congrArg (fun z => elu1 z * x19 (ix2 s u)) ?_
  exact congrFun (kLin _ plain3 v33 v35 x10 _ _ (⟨p.val * 51 + s.val, by omega⟩ : Fin 3264)) u

/-- The conditioner's remaining layers and the final affine map on row `p` of a block. -/
theorem pay1_entry (v58 : FVec Ideal S64x1 .f32) (v70 : FVec Ideal S64x256 .bf16) (v72 : FVec Ideal S256x256 .bf16)
    (x14 : Vec Ideal S1x256 .f32) (x15 : Vec Ideal S256x256 .f32) (x16 : Vec Ideal S1x256 .f32) (x17 : Vec Ideal S256x2 .f32)
    (x18 : Vec Ideal S1x2 .f32) (p : Fin 64) (u : Fin 1) :
    k0_pay1 v58 v70 v72 (constant S64x256 .f32 0x00000000#32) x14 x15 x16 x17 x18 (ix2 p u)
      = Ideal.exp (lin (relu (lin (relu (lin (rowOf v70 p) v72 (rowOf x14 0))) x15 (rowOf x16 0))) x17 (rowOf x18 0) 1) * v58 (ix2 p u)
        + lin (relu (lin (relu (lin (rowOf v70 p) v72 (rowOf x14 0))) x15 (rowOf x16 0))) x17 (rowOf x18 0) 0 := by
  unfold k0_pay1
  simp only [truncf_id]
  refine congrArg₂ (fun a b => Ideal.exp a * v58 (ix2 p u) + b) ?_ ?_
  · refine (slice2_axis1_apply 1 _ _ p u (1 : Fin 2) (by have := u.isLt; show 1 = 1 + u.val; omega)).trans ?_
    refine (congrFun (kLin _ plain6 _ _ _ _ _ p) 1).trans ?_
    rw [kHid _ plain5, kHid _ plain5]
  · refine (slice2_axis1_apply 0 _ _ p u (0 : Fin 2) (by have := u.isLt; show 0 = 0 + u.val; omega)).trans ?_
    refine (congrFun (kLin _ plain6 _ _ _ _ _ p) 0).trans ?_
    rw [kHid _ plain5, kHid _ plain5]

/-- ONE GRID POINT'S RESULT at row `p` of its block: the network's result for that row, from the row's `x`, its features
    and its fifty-one quadrature points as the point's blocks hold them. -/
theorem payload_entry (x0 : Vec Ideal S64x51x16 .f32) (x1 : Vec Ideal S64x15 .f32) (x2 : Vec Ideal S64x1 .f32)
    (x3 : Vec Ideal S16x256 .f32) (x4 : Vec Ideal S1x256 .f32) (x5 : Vec Ideal S256x256 .f32)
    (x6 : Vec Ideal S1x256 .f32) (x7 : Vec Ideal S256x256 .f32) (x8 : Vec Ideal S1x256 .f32) (x9 : Vec Ideal S256x1 .f32)
    (x10 : Vec Ideal S1x1 .f32) (x11 : Vec Ideal S15x256 .f32) (x12 : Vec Ideal S1x256 .f32) (x13 : Vec Ideal S256x256 .f32)
    (x14 : Vec Ideal S1x256 .f32) (x15 : Vec Ideal S256x256 .f32) (x16 : Vec Ideal S1x256 .f32) (x17 : Vec Ideal S256x2 .f32)
    (x18 : Vec Ideal S1x2 .f32) (x19 : Vec Ideal S51x1 .f32) (p : Fin 64) (u : Fin 1) :
    k0_pay1 (k0_pay4 (k0_pay2 x0 x3 x4 x5 x6 x7 x8) (k0_pay3 x9) x10 x19 x2) (k0_pay5 x1 x11 x12) (k0_pay6 x13)
        (constant S64x256 .f32 0x00000000#32) x14 x15 x16 x17 x18 (ix2 p u)
      = (blkParams x3 x4 x5 x6 x7 x8 x9 x10 x11 x12 x13 x14 x15 x16 x17 x18 x19).out (x2 (ix2 p (0 : Fin 1))) (rowOf x1 p)
          (fun s d => x0 (ix3 p s d)) := by
  obtain rfl : u = 0 := Subsingleton.elim _ _
  rw [pay1_entry, pay4_entry, pay5_row]
  have e3 : k0_pay3 x9 = x9 := rfl
  have e6 : k0_pay6 x13 = x13 := rfl
  rw [e3, e6]
  unfold Params.out Params.cond Params.zf blkParams
  dsimp only
  simp only [pay2_row']

end Cert.KernelIdeal.Payload

end
-- ==== Proof.KernelTerm.lean ====
import proofs.«157733_j5755256177212_1_alg».proof.Proof.Gen.KernelIdeal
import Idealize.ShloMosaic.PureOps.Ideal

noncomputable section

namespace Cert.KernelIdeal.Blocks

open Cert.KernelIdeal Cert.KernelIdeal.Gen Idealize.ShloMosaic

/-- The two constant tables of the module: the quadrature weights and the Chebyshev nodes. -/
def ccwTab : FVec Ideal S51x1 .f32 := fun i => FloatOps.ofBits .f32 (lit0 (S51x1.rowMajor i))
def stepsTab : FVec Ideal S51x1 .f32 := fun i => FloatOps.ofBits .f32 (lit1 (S51x1.rowMajor i))

/-- The quadrature points the host lines before the call build: per batch row and node, the scaled abscissa followed by
    the row's fifteen features. -/
def xhOf (steps : FVec Ideal S51x1 .f32) (x : FVec Ideal S8192x1 .f32) (h : FVec Ideal S8192x15 .f32) : FVec Ideal S8192x51x16 .f32 :=
  concatenate S8192x51x16 2
    [⟨S8192x51x1, mulf (mulf
        (broadcastInDim S8192x51x1 ![0, 1, 2] bcast_S8192x1x1_S8192x51x1_0_1_2
          (broadcastInDim S8192x1x1 ![0, 2] bcast_S8192x1_S8192x1x1_0_2 x))
        (broadcastInDim S8192x51x1 ![0, 1, 2] bcast_S1x51x1_S8192x51x1_0_1_2
          (addf (broadcastInDim S1x51x1 ![1, 2] bcast_S51x1_S1x51x1_1_2 steps)
            (broadcastInDim S1x51x1 ![] bcast_S_S1x51x1 (constant (F := Ideal) S_ .f32 0x3F800000#32)))))
        (broadcastInDim S8192x51x1 ![] bcast_S_S8192x51x1 (constant (F := Ideal) S_ .f32 0x3F000000#32))⟩,
     ⟨S8192x51x15, broadcastInDim S8192x51x15 ![0, 1, 2] bcast_S8192x1x15_S8192x51x15_0_1_2
        (broadcastInDim S8192x1x15 ![0, 2] bcast_S8192x15_S8192x1x15_0_2 h)⟩]
    concatenates_S8192x51x1_S8192x51x15_S8192x51x16_d2

end Cert.KernelIdeal.Blocks

end
-- ==== Proof.KernelBlocks.lean ====
import proofs.«157733_j5755256177212_1_alg».proof.Proof.Gen.KernelIdeal.Value
import proofs.«157733_j5755256177212_1_alg».proof.Proof.KernelPayload
import proofs.«157733_j5755256177212_1_alg».proof.Proof.KernelTerm
import proofs.«157733_j5755256177212_1_alg».proof.Proof.Spec
import Idealize.ShloMosaic.Lib.Pipeline.Value
import Idealize.ShloMosaic.Lib.StableHlo.Run
import Idealize.ShloMosaic.Lib.ValueIdx
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Value Cert.KernelIdeal.Payload Cert.Mnn

/-! # From one grid point's block to the whole result array

The call runs over 128 grid points. Point `t` stages rows `64 t … 64 t + 63` of the quadrature-point array, of the feature
argument and of the `x` argument, and the whole of every weight, bias and table array; it stores rows `64 t … 64 t + 63` of the
result. Row `p` of what it stores is the network's result on row `p` of its blocks, which is row `64 t + p` of one function
`result` of the arguments; the 128 blocks cover the 8192 rows, so the array ends holding `result`. -/

variable (m : (ℓ : Loc nD τ sig) → Buf (Elt Ideal) ℓ) (ρ : Dev nD → PrngReg)

/-! ## The arrays the host lines leave for the call -/

/-- The quadrature-point array the call stages is the host chain's term of the two batch arguments. -/
theorem V_xh (c : Dev nD) : (V m c main_v11 : S8192x51x16.Idx → EReal)
    = xhOf stepsTab (m ((c : Thread nD τ).loc main_arg0)) (m ((c : Thread nD τ).loc main_arg1)) := by
  dsimp only [Gen.V, Gen.hostOps0]; after_results; rfl

/-- The constant table the call stages is the table of quadrature weights. -/
theorem V_ccw (c : Dev nD) : (V m c main_cst : S51x1.Idx → EReal) = ccwTab := by
  dsimp only [Gen.V, Gen.hostOps0]; after_results; rfl

theorem V_ib0 (c : Dev nD) : (V m c main_v12 : S1x256.Idx → EReal)
    = shapeCast S1x256 (m ((c : Thread nD τ).loc main_arg3)) shapeCasts_S256_S1x256 := by
  dsimp only [Gen.V, Gen.hostOps0]; after_results; rfl

theorem V_ib1 (c : Dev nD) : (V m c main_v13 : S1x256.Idx → EReal)
    = shapeCast S1x256 (m ((c : Thread nD τ).loc main_arg5)) shapeCasts_S256_S1x256 := by
  dsimp only [Gen.V, Gen.hostOps0]; after_results; rfl

theorem V_ib2 (c : Dev nD) : (V m c main_v14 : S1x256.Idx → EReal)
    = shapeCast S1x256 (m ((c : Thread nD τ).loc main_arg7)) shapeCasts_S256_S1x256 := by
  dsimp only [Gen.V, Gen.hostOps0]; after_results; rfl

theorem V_ib3 (c : Dev nD) : (V m c main_v15 : S1x1.Idx → EReal)
    = shapeCast S1x1 (m ((c : Thread nD τ).loc main_arg9)) shapeCasts_S1_S1x1 := by
  dsimp only [Gen.V, Gen.hostOps0]; after_results; rfl

theorem V_hb0 (c : Dev nD) : (V m c main_v16 : S1x256.Idx → EReal)
    = shapeCast S1x256 (m ((c : Thread nD τ).loc main_arg11)) shapeCasts_S256_S1x256 := by
  dsimp only [Gen.V, Gen.hostOps0]; after_results; rfl

theorem V_hb1 (c : Dev nD) : (V m c main_v17 : S1x256.Idx → EReal)
    = shapeCast S1x256 (m ((c : Thread nD τ).loc main_arg13)) shapeCasts_S256_S1x256 := by
  dsimp only [Gen.V, Gen.hostOps0]; after_results; rfl

theorem V_hb2 (c : Dev nD) : (V m c main_v18 : S1x256.Idx → EReal)
    = shapeCast S1x256 (m ((c : Thread nD τ).loc main_arg15)) shapeCasts_S256_S1x256 := by
  dsimp only [Gen.V, Gen.hostOps0]; after_results; rfl

theorem V_hb3 (c : Dev nD) : (V m c main_v19 : S1x2.Idx → EReal)
    = shapeCast S1x2 (m ((c : Thread nD τ).loc main_arg17)) shapeCasts_S2_S1x2 := by
  dsimp only [Gen.V, Gen.hostOps0]; after_results; rfl

/-! ## The index maps over the grid -/

/-- Decided once over the 128 points: the three batch windows and the result window sit at block `t` along the
    rows and at block zero elsewhere; every weight, bias and table window stays at block zero. -/
theorem idx_rows : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_20.index t (0 : Fin 2) = t.val ∧ win0_20.index t (1 : Fin 2) = 0 :=
  (by decide +kernel : ∀ t : Fin grid0.N, _)

theorem idx_whole : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0)
    ∧ (win0_15.index t (0 : Fin 2) = 0 ∧ win0_15.index t (1 : Fin 2) = 0)
    ∧ (win0_16.index t (0 : Fin 2) = 0 ∧ win0_16.index t (1 : Fin 2) = 0)
    ∧ (win0_17.index t (0 : Fin 2) = 0 ∧ win0_17.index t (1 : Fin 2) = 0)
    ∧ (win0_18.index t (0 : Fin 2) = 0 ∧ win0_18.index t (1 : Fin 2) = 0)
    ∧ (win0_19.index t (0 : Fin 2) = 0 ∧ win0_19.index t (1 : Fin 2) = 0) :=
  (by decide +kernel : ∀ t : Fin grid0.N, _)

/-! ## Each window's block at a point, read off its array -/

/-- Entry `(p, s, d)` of the quadrature block at point `t` is entry `(64 t + p, s, d)` of the array. -/
theorem blk0_apply (c : Dev nD) (t : Fin cfg0.N) (p : Fin 64) (s : Fin 51) (d : Fin 16) (r : Fin 8192)
    (hr : r.val = 64 * t.val + p.val) :
    (iblk m c 0 t : Vec Ideal S64x51x16 .f32) (ix3 p s d) = (V m c main_v11 : S8192x51x16.Idx → EReal) (ix3 r s d) := by
  obtain ⟨e0, e1, e2, -⟩ := idx_rows t
  unfold iblk
  rw [View.read_apply]
  show (V m c main_v11 : S8192x51x16.Idx → EReal) _ = (V m c main_v11 : S8192x51x16.Idx → EReal) _
  refine congrArg (V m c main_v11 : S8192x51x16.Idx → EReal) ?_
  funext a
  apply Fin.ext
  match a with
  | ⟨0, _⟩ => show win0_0.index t (0 : Fin 3) * 64 + 1 * p.val = r.val; rw [e0, hr]; omega
  | ⟨1, _⟩ => show win0_0.index t (1 : Fin 3) * 51 + 1 * s.val = s.val; rw [e1]; omega
  | ⟨2, _⟩ => show win0_0.index t (2 : Fin 3) * 16 + 1 * d.val = d.val; rw [e2]; omega

/-- Entry `(p, k)` of the feature block at point `t` is entry `(64 t + p, k)` of the feature argument. -/
theorem blk1_apply (c : Dev nD) (t : Fin cfg0.N) (p : Fin 64) (k : Fin 15) (r : Fin 8192)
    (hr : r.val = 64 * t.val + p.val) :
    (iblk m c 1 t : Vec Ideal S64x15 .f32) (ix2 p k) = (V m c main_arg1 : S8192x15.Idx → EReal) (ix2 r k) := by
  obtain ⟨-, -, -, e0, e1, -⟩ := idx_rows t
  unfold iblk
  rw [View.read_apply]
  show (V m c main_arg1 : S8192x15.Idx → EReal) _ = (V m c main_arg1 : S8192x15.Idx → EReal) _
  refine congrArg (V m c main_arg1 : S8192x15.Idx → EReal) ?_
  funext a
  apply Fin.ext
  match a with
  | ⟨0, _⟩ => show win0_1.index t (0 : Fin 2) * 64 + 1 * p.val = r.val; rw [e0, hr]; omega
  | ⟨1, _⟩ => show win0_1.index t (1 : Fin 2) * 15 + 1 * k.val = k.val; rw [e1]; omega

/-- Entry `(p, u)` of the `x` block at point `t` is entry `(64 t + p, u)` of the `x` argument. -/
theorem blk2_apply (c : Dev nD) (t : Fin cfg0.N) (p : Fin 64) (u : Fin 1) (r : Fin 8192)
    (hr : r.val = 64 * t.val + p.val) :
    (iblk m c 2 t : Vec Ideal S64x1 .f32) (ix2 p u) = (V m c main_arg0 : S8192x1.Idx → EReal) (ix2 r u) := by
  obtain ⟨-, -, -, -, -, e0, e1, -⟩ := idx_rows t
  unfold iblk
  rw [View.read_apply]
  show (V m c main_arg0 : S8192x1.Idx → EReal) _ = (V m c main_arg0 : S8192x1.Idx → EReal) _
  refine congrArg (V m c main_arg0 : S8192x1.Idx → EReal) ?_
  funext a
  apply Fin.ext
  match a with
  | ⟨0, _⟩ => show win0_2.index t (0 : Fin 2) * 64 + 1 * p.val = r.val; rw [e0, hr]; omega
  | ⟨1, _⟩ => show win0_2.index t (1 : Fin 2) * 1 + 1 * u.val = u.val; rw [e1]; omega

/-! ## The weight, bias and table windows: one block, the whole array, at every point -/

theorem blk3_eq (c : Dev nD) (t : Fin cfg0.N) :
    (iblk m c 3 t : Vec Ideal S16x256 .f32) = (V m c main_arg2 : S16x256.Idx → EReal) := by
  obtain ⟨e0, e1⟩ := (idx_whole t).1
  funext y
  unfold iblk
  rw [View.read_apply]
  show (V m c main_arg2 : S16x256.Idx → EReal) _ = (V m c main_arg2 : S16x256.Idx → EReal) y
  refine congrArg (V m c main_arg2 : S16x256.Idx → EReal) ?_
  funext a
  apply Fin.ext
  match a with
  | ⟨0, _⟩ => show win0_3.index t (0 : Fin 2) * 16 + 1 * (y 0).val = (y 0).val; rw [e0]; omega
  | ⟨1, _⟩ => show win0_3.index t (1 : Fin 2) * 256 + 1 * (y 1).val = (y 1).val; rw [e1]; omega

theorem blk4_eq (c : Dev nD) (t : Fin cfg0.N) :
    (iblk m c 4 t : Vec Ideal S1x256 .f32) = (V m c main_v12 : S1x256.Idx → EReal) := by
  obtain ⟨e0, e1⟩ := (idx_whole t).2.1
  funext y
  unfold iblk
  rw [View.read_apply]
  show (V m c main_v12 : S1x256.Idx → EReal) _ = (V m c main_v12 : S1x256.Idx → EReal) y
  refine congrArg (V m c main_v12 : S1x256.Idx → EReal) ?_
  funext a
  apply Fin.ext
  match a with
  | ⟨0, _⟩ => show win0_4.index t (0 : Fin 2) * 1 + 1 * (y 0).val = (y 0).val; rw [e0]; omega
  | ⟨1, _⟩ => show win0_4.index t (1 : Fin 2) * 256 + 1 * (y 1).val = (y 1).val; rw [e1]; omega

theorem blk5_eq (c : Dev nD) (t : Fin cfg0.N) :
    (iblk m c 5 t : Vec Ideal S256x256 .f32) = (V m c main_arg4 : S256x256.Idx → EReal) := by
  obtain ⟨e0, e1⟩ := (idx_whole t).2.2.1
  funext y
  unfold iblk
  rw [View.read_apply]
  show (V m c main_arg4 : S256x256.Idx → EReal) _ = (V m c main_arg4 : S256x256.Idx → EReal) y
  refine congrArg (V m c main_arg4 : S256x256.Idx → EReal) ?_
  funext a
  apply Fin.ext
  match a with
  | ⟨0, _⟩ => show win0_5.index t (0 : Fin 2) * 256 + 1 * (y 0).val = (y 0).val; rw [e0]; omega
  | ⟨1, _⟩ => show win0_5.index t (1 : Fin 2) * 256 + 1 * (y 1).val = (y 1).val; rw [e1]; omega

theorem blk6_eq (c : Dev nD) (t : Fin cfg0.N) :
    (iblk m c 6 t : Vec Ideal S1x256 .f32) = (V m c main_v13 : S1x256.Idx → EReal) := by
  obtain ⟨e0, e1⟩ := (idx_whole t).2.2.2.1
  funext y
  unfold iblk
  rw [View.read_apply]
  show (V m c main_v13 : S1x256.Idx → EReal) _ = (V m c main_v13 : S1x256.Idx → EReal) y
  refine congrArg (V m c main_v13 : S1x256.Idx → EReal) ?_
  funext a
  apply Fin.ext
  match a with
  | ⟨0, _⟩ => show win0_6.index t (0 : Fin 2) * 1 + 1 * (y 0).val = (y 0).val; rw [e0]; omega
  | ⟨1, _⟩ => show win0_6.index t (1 : Fin 2) * 256 + 1 * (y 1).val = (y 1).val; rw [e1]; omega

theorem blk7_eq (c : Dev nD) (t : Fin cfg0.N) :
    (iblk m c 7 t : Vec Ideal S256x256 .f32) = (V m c main_arg6 : S256x256.Idx → EReal) := by
  obtain ⟨e0, e1⟩ := (idx_whole t).2.2.2.2.1
  funext y
  unfold iblk
  rw [View.read_apply]
  show (V m c main_arg6 : S256x256.Idx → EReal) _ = (V m c main_arg6 : S256x256.Idx → EReal) y
  refine congrArg (V m c main_arg6 : S256x256.Idx → EReal) ?_
  funext a
  apply Fin.ext
  match a with
  | ⟨0, _⟩ => show win0_7.index t (0 : Fin 2) * 256 + 1 * (y 0).val = (y 0).val; rw [e0]; omega
  | ⟨1, _⟩ => show win0_7.index t (1 : Fin 2) * 256 + 1 * (y 1).val = (y 1).val; rw [e1]; omega

theorem blk8_eq (c : Dev nD) (t : Fin cfg0.N) :
    (iblk m c 8 t : Vec Ideal S1x256 .f32) = (V m c main_v14 : S1x256.Idx → EReal) := by
  obtain ⟨e0, e1⟩ := (idx_whole t).2.2.2.2.2.1
  funext y
  unfold iblk
  rw [View.read_apply]
  show (V m c main_v14 : S1x256.Idx → EReal) _ = (V m c main_v14 : S1x256.Idx → EReal) y
  refine congrArg (V m c main_v14 : S1x256.Idx → EReal) ?_
  funext a
  apply Fin.ext
  match a with
  | ⟨0, _⟩ => show win0_8.index t (0 : Fin 2) * 1 + 1 * (y 0).val = (y 0).val; rw [e0]; omega
  | ⟨1, _⟩ => show win0_8.index t (1 : Fin 2) * 256 + 1 * (y 1).val = (y 1).val; rw [e1]; omega

theorem blk9_eq (c : Dev nD) (t : Fin cfg0.N) :
    (iblk m c 9 t : Vec Ideal S256x1 .f32) = (V m c main_arg8 : S256x1.Idx → EReal) := by
  obtain ⟨e0, e1⟩ := (idx_whole t).2.2.2.2.2.2.1
  funext y
  unfold iblk
  rw [View.read_apply]
  show (V m c main_arg8 : S256x1.Idx → EReal) _ = (V m c main_arg8 : S256x1.Idx → EReal) y
  refine congrArg (V m c main_arg8 : S256x1.Idx → EReal) ?_
  funext a
  apply Fin.ext
  match a with
  | ⟨0, _⟩ => show win0_9.index t (0 : Fin 2) * 256 + 1 * (y 0).val = (y 0).val; rw [e0]; omega
  | ⟨1, _⟩ => show win0_9.index t (1 : Fin 2) * 1 + 1 * (y 1).val = (y 1).val; rw [e1]; omega

theorem blk10_eq (c : Dev nD) (t : Fin cfg0.N) :
    (iblk m c 10 t : Vec Ideal S1x1 .f32) = (V m c main_v15 : S1x1.Idx → EReal) := by
  obtain ⟨e0, e1⟩ := (idx_whole t).2.2.2.2.2.2.2.1
  funext y
  unfold iblk
  rw [View.read_apply]
  show (V m c main_v15 : S1x1.Idx → EReal) _ = (V m c main_v15 : S1x1.Idx → EReal) y
  refine congrArg (V m c main_v15 : S1x1.Idx → EReal) ?_
  funext a
  apply Fin.ext
  match a with
  | ⟨0, _⟩ => show win0_10.index t (0 : Fin 2) * 1 + 1 * (y 0).val = (y 0).val; rw [e0]; omega
  | ⟨1, _⟩ => show win0_10.index t (1 : Fin 2) * 1 + 1 * (y 1).val = (y 1).val; rw [e1]; omega

theorem blk11_eq (c : Dev nD) (t : Fin cfg0.N) :
    (iblk m c 11 t : Vec Ideal S15x256 .f32) = (V m c main_arg10 : S15x256.Idx → EReal) := by
  obtain ⟨e0, e1⟩ := (idx_whole t).2.2.2.2.2.2.2.2.1
  funext y
  unfold iblk
  rw [View.read_apply]
  show (V m c main_arg10 : S15x256.Idx → EReal) _ = (V m c main_arg10 : S15x256.Idx → EReal) y
  refine congrArg (V m c main_arg10 : S15x256.Idx → EReal) ?_
  funext a
  apply Fin.ext
  match a with
  | ⟨0, _⟩ => show win0_11.index t (0 : Fin 2) * 15 + 1 * (y 0).val = (y 0).val; rw [e0]; omega
  | ⟨1, _⟩ => show win0_11.index t (1 : Fin 2) * 256 + 1 * (y 1).val = (y 1).val; rw [e1]; omega

theorem blk12_eq (c : Dev nD) (t : Fin cfg0.N) :
    (iblk m c 12 t : Vec Ideal S1x256 .f32) = (V m c main_v16 : S1x256.Idx → EReal) := by
  obtain ⟨e0, e1⟩ := (idx_whole t).2.2.2.2.2.2.2.2.2.1
  funext y
  unfold iblk
  rw [View.read_apply]
  show (V m c main_v16 : S1x256.Idx → EReal) _ = (V m c main_v16 : S1x256.Idx → EReal) y
  refine congrArg (V m c main_v16 : S1x256.Idx → EReal) ?_
  funext a
  apply Fin.ext
  match a with
  | ⟨0, _⟩ => show win0_12.index t (0 : Fin 2) * 1 + 1 * (y 0).val = (y 0).val; rw [e0]; omega
  | ⟨1, _⟩ => show win0_12.index t (1 : Fin 2) * 256 + 1 * (y 1).val = (y 1).val; rw [e1]; omega

theorem blk13_eq (c : Dev nD) (t : Fin cfg0.N) :
    (iblk m c 13 t : Vec Ideal S256x256 .f32) = (V m c main_arg12 : S256x256.Idx → EReal) := by
  obtain ⟨e0, e1⟩ := (idx_whole t).2.2.2.2.2.2.2.2.2.2.1
  funext y
  unfold iblk
  rw [View.read_apply]
  show (V m c main_arg12 : S256x256.Idx → EReal) _ = (V m c main_arg12 : S256x256.Idx → EReal) y
  refine congrArg (V m c main_arg12 : S256x256.Idx → EReal) ?_
  funext a
  apply Fin.ext
  match a with
  | ⟨0, _⟩ => show win0_13.index t (0 : Fin 2) * 256 + 1 * (y 0).val = (y 0).val; rw [e0]; omega
  | ⟨1, _⟩ => show win0_13.index t (1 : Fin 2) * 256 + 1 * (y 1).val = (y 1).val; rw [e1]; omega

theorem blk14_eq (c : Dev nD) (t : Fin cfg0.N) :
    (iblk m c 14 t : Vec Ideal S1x256 .f32) = (V m c main_v17 : S1x256.Idx → EReal) := by
  obtain ⟨e0, e1⟩ := (idx_whole t).2.2.2.2.2.2.2.2.2.2.2.1
  funext y
  unfold iblk
  rw [View.read_apply]
  show (V m c main_v17 : S1x256.Idx → EReal) _ = (V m c main_v17 : S1x256.Idx → EReal) y
  refine congrArg (V m c main_v17 : S1x256.Idx → EReal) ?_
  funext a
  apply Fin.ext
  match a with
  | ⟨0, _⟩ => show win0_14.index t (0 : Fin 2) * 1 + 1 * (y 0).val = (y 0).val; rw [e0]; omega
  | ⟨1, _⟩ => show win0_14.index t (1 : Fin 2) * 256 + 1 * (y 1).val = (y 1).val; rw [e1]; omega

theorem blk15_eq (c : Dev nD) (t : Fin cfg0.N) :
    (iblk m c 15 t : Vec Ideal S256x256 .f32) = (V m c main_arg14 : S256x256.Idx → EReal) := by
  obtain ⟨e0, e1⟩ := (idx_whole t).2.2.2.2.2.2.2.2.2.2.2.2.1
  funext y
  unfold iblk
  rw [View.read_apply]
  show (V m c main_arg14 : S256x256.Idx → EReal) _ = (V m c main_arg14 : S256x256.Idx → EReal) y
  refine congrArg (V m c main_arg14 : S256x256.Idx → EReal) ?_
  funext a
  apply Fin.ext
  match a with
  | ⟨0, _⟩ => show win0_15.index t (0 : Fin 2) * 256 + 1 * (y 0).val = (y 0).val; rw [e0]; omega
  | ⟨1, _⟩ => show win0_15.index t (1 : Fin 2) * 256 + 1 * (y 1).val = (y 1).val; rw [e1]; omega

theorem blk16_eq (c : Dev nD) (t : Fin cfg0.N) :
    (iblk m c 16 t : Vec Ideal S1x256 .f32) = (V m c main_v18 : S1x256.Idx → EReal) := by
  obtain ⟨e0, e1⟩ := (idx_whole t).2.2.2.2.2.2.2.2.2.2.2.2.2.1
  funext y
  unfold iblk
  rw [View.read_apply]
  show (V m c main_v18 : S1x256.Idx → EReal) _ = (V m c main_v18 : S1x256.Idx → EReal) y
  refine congrArg (V m c main_v18 : S1x256.Idx → EReal) ?_
  funext a
  apply Fin.ext
  match a with
  | ⟨0, _⟩ => show win0_16.index t (0 : Fin 2) * 1 + 1 * (y 0).val = (y 0).val; rw [e0]; omega
  | ⟨1, _⟩ => show win0_16.index t (1 : Fin 2) * 256 + 1 * (y 1).val = (y 1).val; rw [e1]; omega

theorem blk17_eq (c : Dev nD) (t : Fin cfg0.N) :
    (iblk m c 17 t : Vec Ideal S256x2 .f32) = (V m c main_arg16 : S256x2.Idx → EReal) := by
  obtain ⟨e0, e1⟩ := (idx_whole t).2.2.2.2.2.2.2.2.2.2.2.2.2.2.1
  funext y
  unfold iblk
  rw [View.read_apply]
  show (V m c main_arg16 : S256x2.Idx → EReal) _ = (V m c main_arg16 : S256x2.Idx → EReal) y
  refine congrArg (V m c main_arg16 : S256x2.Idx → EReal) ?_
  funext a
  apply Fin.ext
  match a with
  | ⟨0, _⟩ => show win0_17.index t (0 : Fin 2) * 256 + 1 * (y 0).val = (y 0).val; rw [e0]; omega
  | ⟨1, _⟩ => show win0_17.index t (1 : Fin 2) * 2 + 1 * (y 1).val = (y 1).val; rw [e1]; omega

theorem blk18_eq (c : Dev nD) (t : Fin cfg0.N) :
    (iblk m c 18 t : Vec Ideal S1x2 .f32) = (V m c main_v19 : S1x2.Idx → EReal) := by
  obtain ⟨e0, e1⟩ := (idx_whole t).2.2.2.2.2.2.2.2.2.2.2.2.2.2.2.1
  funext y
  unfold iblk
  rw [View.read_apply]
  show (V m c main_v19 : S1x2.Idx → EReal) _ = (V m c main_v19 : S1x2.Idx → EReal) y
  refine congrArg (V m c main_v19 : S1x2.Idx → EReal) ?_
  funext a
  apply Fin.ext
  match a with
  | ⟨0, _⟩ => show win0_18.index t (0 : Fin 2) * 1 + 1 * (y 0).val = (y 0).val; rw [e0]; omega
  | ⟨1, _⟩ => show win0_18.index t (1 : Fin 2) * 2 + 1 * (y 1).val = (y 1).val; rw [e1]; omega

theorem blk19_eq (c : Dev nD) (t : Fin cfg0.N) :
    (iblk m c 19 t : Vec Ideal S51x1 .f32) = (V m c main_cst : S51x1.Idx → EReal) := by
  obtain ⟨e0, e1⟩ := (idx_whole t).2.2.2.2.2.2.2.2.2.2.2.2.2.2.2.2
  funext y
  unfold iblk
  rw [View.read_apply]
  show (V m c main_cst : S51x1.Idx → EReal) _ = (V m c main_cst : S51x1.Idx → EReal) y
  refine congrArg (V m c main_cst : S51x1.Idx → EReal) ?_
  funext a
  apply Fin.ext
  match a with
  | ⟨0, _⟩ => show win0_19.index t (0 : Fin 2) * 51 + 1 * (y 0).val = (y 0).val; rw [e0]; omega
  | ⟨1, _⟩ => show win0_19.index t (1 : Fin 2) * 1 + 1 * (y 1).val = (y 1).val; rw [e1]; omega

/-! ## One grid point's block, row by row -/

theorem hz2 : (![0, 0] : Fin 2 → Nat) = fun _ => 0 := funext fun a => by fin_cases a <;> rfl
theorem hz3 : (![0, 0, 0] : Fin 3 → Nat) = fun _ => 0 := funext fun a => by fin_cases a <;> rfl

/-- What the body stores for row `p` of a point's block: the network's result on that row of the point's input blocks. -/
theorem point_entry (x0 : Vec Ideal S64x51x16 .f32) (x1 : Vec Ideal S64x15 .f32) (x2 : Vec Ideal S64x1 .f32) (x3 : Vec Ideal S16x256 .f32) (x4 : Vec Ideal S1x256 .f32) (x5 : Vec Ideal S256x256 .f32) (x6 : Vec Ideal S1x256 .f32) (x7 : Vec Ideal S256x256 .f32) (x8 : Vec Ideal S1x256 .f32) (x9 : Vec Ideal S256x1 .f32) (x10 : Vec Ideal S1x1 .f32) (x11 : Vec Ideal S15x256 .f32) (x12 : Vec Ideal S1x256 .f32) (x13 : Vec Ideal S256x256 .f32) (x14 : Vec Ideal S1x256 .f32) (x15 : Vec Ideal S256x256 .f32) (x16 : Vec Ideal S1x256 .f32) (x17 : Vec Ideal S256x2 .f32) (x18 : Vec Ideal S1x2 .f32) (x19 : Vec Ideal S51x1 .f32) (p : Fin 64) (u : Fin 1) :
    out0_20 x0 x1 x2 x3 x4 x5 x6 x7 x8 x9 x10 x11 x12 x13 x14 x15 x16 x17 x18 x19 (ix2 p u)
      = (blkParams x3 x4 x5 x6 x7 x8 x9 x10 x11 x12 x13 x14 x15 x16 x17 x18 x19).out (x2 (ix2 p (0 : Fin 1))) (rowOf x1 p) (fun s d => x0 (ix3 p s d)) := by
  unfold out0_20
  rw [View.canon_unit_zero hz2]
  simp only [View.ld_unit_zero (S := S64x51x16) hz3, View.ld_unit_zero (S := S16x256) hz2, View.ld_unit_zero (S := S1x256) hz2, View.ld_unit_zero (S := S256x256) hz2, View.ld_unit_zero (S := S256x1) hz2, View.ld_unit_zero (S := S1x1) hz2, View.ld_unit_zero (S := S51x1) hz2, View.ld_unit_zero (S := S64x1) hz2, View.ld_unit_zero (S := S64x15) hz2, View.ld_unit_zero (S := S15x256) hz2, View.ld_unit_zero (S := S256x2) hz2, View.ld_unit_zero (S := S1x2) hz2]
  exact payload_entry x0 x1 x2 x3 x4 x5 x6 x7 x8 x9 x10 x11 x12 x13 x14 x15 x16 x17 x18 x19 p u

/-- A bias reshaped to one row, read along that row, is the bias. -/
theorem row_of_cast (n : ℕ) (b : (⟨1, ![n]⟩ : Shape).Idx → EReal) (h : (⟨1, ![n]⟩ : Shape).ShapeCasts ⟨2, ![1, n]⟩) :
    rowOf (shapeCast ⟨2, ![1, n]⟩ b h) (0 : Fin 1) = fun j => b (ix1 j) :=
  funext fun j => shapeCast_a_1a_apply b h 0 j

/-- The weights as a point's blocks hold them are the weights of the arguments: each bias block is its argument laid as one row. -/
theorem blkParams_cast (iw0 : FVec Ideal S16x256 .f32) (ib0 : FVec Ideal S256 .f32) (iw1 : FVec Ideal S256x256 .f32) (ib1 : FVec Ideal S256 .f32) (iw2 : FVec Ideal S256x256 .f32) (ib2 : FVec Ideal S256 .f32) (iw3 : FVec Ideal S256x1 .f32) (ib3 : FVec Ideal S1 .f32) (hw0 : FVec Ideal S15x256 .f32) (hb0 : FVec Ideal S256 .f32) (hw1 : FVec Ideal S256x256 .f32) (hb1 : FVec Ideal S256 .f32) (hw2 : FVec Ideal S256x256 .f32) (hb2 : FVec Ideal S256 .f32) (hw3 : FVec Ideal S256x2 .f32) (hb3 : FVec Ideal S2 .f32) (ccw : FVec Ideal S51x1 .f32) :
    blkParams iw0 (shapeCast S1x256 ib0 shapeCasts_S256_S1x256) iw1 (shapeCast S1x256 ib1 shapeCasts_S256_S1x256) iw2 (shapeCast S1x256 ib2 shapeCasts_S256_S1x256) iw3 (shapeCast S1x1 ib3 shapeCasts_S1_S1x1) hw0 (shapeCast S1x256 hb0 shapeCasts_S256_S1x256) hw1 (shapeCast S1x256 hb1 shapeCasts_S256_S1x256) hw2 (shapeCast S1x256 hb2 shapeCasts_S256_S1x256) hw3 (shapeCast S1x2 hb3 shapeCasts_S2_S1x2) ccw
      = paramsOf iw0 ib0 iw1 ib1 iw2 ib2 iw3 ib3 hw0 hb0 hw1 hb1 hw2 hb2 hw3 hb3 ccw := by
  unfold blkParams paramsOf
  simp only [row_of_cast]

theorem params_of_blocks {x3 : Vec Ideal S16x256 .f32} {x4 : Vec Ideal S1x256 .f32} {x5 : Vec Ideal S256x256 .f32} {x6 : Vec Ideal S1x256 .f32} {x7 : Vec Ideal S256x256 .f32} {x8 : Vec Ideal S1x256 .f32} {x9 : Vec Ideal S256x1 .f32} {x10 : Vec Ideal S1x1 .f32} {x11 : Vec Ideal S15x256 .f32} {x12 : Vec Ideal S1x256 .f32} {x13 : Vec Ideal S256x256 .f32} {x14 : Vec Ideal S1x256 .f32} {x15 : Vec Ideal S256x256 .f32} {x16 : Vec Ideal S1x256 .f32} {x17 : Vec Ideal S256x2 .f32} {x18 : Vec Ideal S1x2 .f32} {x19 : Vec Ideal S51x1 .f32}
    {iw0 : FVec Ideal S16x256 .f32} {ib0 : FVec Ideal S256 .f32} {iw1 : FVec Ideal S256x256 .f32} {ib1 : FVec Ideal S256 .f32} {iw2 : FVec Ideal S256x256 .f32} {ib2 : FVec Ideal S256 .f32} {iw3 : FVec Ideal S256x1 .f32} {ib3 : FVec Ideal S1 .f32} {hw0 : FVec Ideal S15x256 .f32} {hb0 : FVec Ideal S256 .f32} {hw1 : FVec Ideal S256x256 .f32} {hb1 : FVec Ideal S256 .f32} {hw2 : FVec Ideal S256x256 .f32} {hb2 : FVec Ideal S256 .f32} {hw3 : FVec Ideal S256x2 .f32} {hb3 : FVec Ideal S2 .f32} {ccw : FVec Ideal S51x1 .f32}
    (h3 : x3 = iw0) (h4 : x4 = shapeCast S1x256 ib0 shapeCasts_S256_S1x256) (h5 : x5 = iw1) (h6 : x6 = shapeCast S1x256 ib1 shapeCasts_S256_S1x256) (h7 : x7 = iw2) (h8 : x8 = shapeCast S1x256 ib2 shapeCasts_S256_S1x256) (h9 : x9 = iw3) (h10 : x10 = shapeCast S1x1 ib3 shapeCasts_S1_S1x1) (h11 : x11 = hw0) (h12 : x12 = shapeCast S1x256 hb0 shapeCasts_S256_S1x256) (h13 : x13 = hw1) (h14 : x14 = shapeCast S1x256 hb1 shapeCasts_S256_S1x256) (h15 : x15 = hw2) (h16 : x16 = shapeCast S1x256 hb2 shapeCasts_S256_S1x256) (h17 : x17 = hw3) (h18 : x18 = shapeCast S1x2 hb3 shapeCasts_S2_S1x2) (h19 : x19 = ccw) :
    blkParams x3 x4 x5 x6 x7 x8 x9 x10 x11 x12 x13 x14 x15 x16 x17 x18 x19 = paramsOf iw0 ib0 iw1 ib1 iw2 ib2 iw3 ib3 hw0 hb0 hw1 hb1 hw2 hb2 hw3 hb3 ccw := by
  subst h3 h4 h5 h6 h7 h8 h9 h10 h11 h12 h13 h14 h15 h16 h17 h18 h19
  exact blkParams_cast _ _ _ _ _ _ _ _ _ _ _ _ _ _ _ _ _

theorem out_congr {P P' : Params} {a a' : EReal} {f f' : Fin 15 → EReal} {q q' : Fin 51 → Fin 16 → EReal}
    (hP : P = P') (ha : a = a') (hf : f = f') (hq : q = q') : P.out a f q = P'.out a' f' q' := by
  subst hP ha hf hq; rfl

/-- The whole result array: the network's result on each batch row, from the arguments and the host-built quadrature points. -/
def result (c : Dev nD) : S8192x1.Idx → EReal :=
  Cert.Mnn.G (Cert.Mnn.paramsOf (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) ccwTab)
    (m ((c : Thread nD τ).loc main_arg0)) (m ((c : Thread nD τ).loc main_arg1))
    (xhOf stepsTab (m ((c : Thread nD τ).loc main_arg0)) (m ((c : Thread nD τ).loc main_arg1)))

/-- Row `p` of what point `t` stores is row `64 t + p` of `result`. -/
theorem row_entry (c : Dev nD) (t : Fin cfg0.N) (p : Fin 64) (u : Fin 1) (r : Fin 8192) (hr : r.val = 64 * t.val + p.val) :
    out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (ix2 p u) = result m c (ix2 r u) := by
  obtain rfl : u = 0 := Subsingleton.elim _ _
  refine (point_entry (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) p 0).trans ?_
  refine out_congr (params_of_blocks
      ((blk3_eq m c t).trans (V_main_arg2 m c))
      ((blk4_eq m c t).trans (V_ib0 m c))
      ((blk5_eq m c t).trans (V_main_arg4 m c))
      ((blk6_eq m c t).trans (V_ib1 m c))
      ((blk7_eq m c t).trans (V_main_arg6 m c))
      ((blk8_eq m c t).trans (V_ib2 m c))
      ((blk9_eq m c t).trans (V_main_arg8 m c))
      ((blk10_eq m c t).trans (V_ib3 m c))
      ((blk11_eq m c t).trans (V_main_arg10 m c))
      ((blk12_eq m c t).trans (V_hb0 m c))
      ((blk13_eq m c t).trans (V_main_arg12 m c))
      ((blk14_eq m c t).trans (V_hb1 m c))
      ((blk15_eq m c t).trans (V_main_arg14 m c))
      ((blk16_eq m c t).trans (V_hb2 m c))
      ((blk17_eq m c t).trans (V_main_arg16 m c))
      ((blk18_eq m c t).trans (V_hb3 m c))
      ((blk19_eq m c t).trans (V_ccw m c))) ?_ ?_ ?_
  · exact (blk2_apply m c t p 0 r hr).trans (congrFun (V_main_arg0 m c) (ix2 r 0))
  · exact funext fun k => (blk1_apply m c t p k r hr).trans (congrFun (V_main_arg1 m c) (ix2 r k))
  · exact funext fun s => funext fun d => (blk0_apply m c t p s d r hr).trans (congrFun (V_xh m c) (ix3 r s d))

/-! ## From the blocks to the array -/

/-- What point `t` writes back is block `t` of `result`. -/
theorem flushed20_eq (c : Dev nD) (t : Fin cfg0.N) :
    (dats m 0 c).flushed 20 t = ((cfg0.win 20).blk t).view.read (Elt Ideal) (result m c) := by
  rw [Value.flushed20]
  have ht : t.val < 128 := Nat.lt_of_lt_of_eq t.isLt N_0
  obtain ⟨-, -, -, -, -, -, -, e0, e1⟩ := idx_rows t
  funext y
  obtain ⟨p, u, rfl⟩ : ∃ (p : Fin 64) (u : Fin 1), y = ix2 p u := ⟨y 0, y 1, eq_ix2 y⟩
  have hr : 64 * t.val + p.val < 8192 := by have := p.isLt; omega
  show out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (ix2 p u) = result m c (((cfg0.win 20).blk t).view.emb (ix2 p u))
  refine (row_entry m c t p u ⟨64 * t.val + p.val, hr⟩ rfl).trans (congrArg (result m c) ?_)
  funext a
  apply Fin.ext
  match a with
  | ⟨0, _⟩ => show 64 * t.val + p.val = win0_20.index t (0 : Fin 2) * 64 + 1 * p.val; rw [e0]; omega
  | ⟨1, _⟩ => show u.val = win0_20.index t (1 : Fin 2) * 1 + 1 * u.val; rw [e1]; omega

/-- An index of the result array is in point `t`'s block iff each coordinate is in the block's range on its axis. -/
theorem mem_blk20 (t : Fin cfg0.N) (i : S8192x1.Idx) :
    i ∈ ((cfg0.win 20).blk t).view.set ↔ ∀ a : Fin 2, win0_20.index t a * S64x1.size a ≤ (i a).val ∧ (i a).val < win0_20.index t a * S64x1.size a + S64x1.size a := by
  show i ∈ ((View.whole main_v20).slice (win0_20.rect t)).set ↔ _
  rw [View.set_slice_whole, Rect.mem_set_unit]
  exact Iff.rfl

/-- Row `r` lies in the block of point `r / 64`, and every point writes back. -/
theorem cover20 (i : S8192x1.Idx) : ∃ t : Fin cfg0.N, (cfg0.win 20).flush t = true ∧ i ∈ ((cfg0.win 20).blk t).view.set := by
  have hi0 : (i 0).val < 8192 := (i 0).isLt
  have hi1 : (i 1).val < 1 := (i 1).isLt
  have hlt : (i 0).val / 64 < cfg0.N := by rw [show cfg0.N = 128 from N_0]; omega
  obtain ⟨-, -, -, -, -, -, -, e0, e1⟩ := idx_rows ⟨(i 0).val / 64, hlt⟩
  refine ⟨⟨(i 0).val / 64, hlt⟩, flush0_20 _, ?_⟩
  rw [mem_blk20]
  intro a
  match a with
  | ⟨0, _⟩ =>
    show win0_20.index ⟨(i 0).val / 64, hlt⟩ (0 : Fin 2) * 64 ≤ (i 0).val ∧ (i 0).val < win0_20.index ⟨(i 0).val / 64, hlt⟩ (0 : Fin 2) * 64 + 64
    rw [e0]; show (i 0).val / 64 * 64 ≤ (i 0).val ∧ (i 0).val < (i 0).val / 64 * 64 + 64; omega
  | ⟨1, _⟩ =>
    show win0_20.index ⟨(i 0).val / 64, hlt⟩ (1 : Fin 2) * 1 ≤ (i 1).val ∧ (i 1).val < win0_20.index ⟨(i 0).val / 64, hlt⟩ (1 : Fin 2) * 1 + 1
    rw [e1]; omega

/-- The result array after the run is `result`. -/
theorem final20 (c : Dev nD) : (dats m 0 c).arrAt 20 cfg0.N = result m c :=
  (dats m 0 c).arrAt_eq_of_cover 20 (result m c) (fun t _ => flushed20_eq m c t) cover20

/-- The run, read: the result array at `result`, the eighteen arguments unchanged. -/
theorem run : θ_run defs (onTc (τ := τ) (main (F := Ideal))) ⟨m, fun _ => 0, ρ⟩ fun r => ∀ c : Dev nD,
      r.2.mem ((c : Thread nD τ).loc main_v20) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17) :=
  (θ_run defs _ _).mono (fun r h c => ⟨(h c).1.trans (final20 m c), (h c).2⟩) (Value.run_blocks m ρ)

end Cert.KernelIdeal.Blocks

end
-- ==== Proof.RefTerm.lean ====
import proofs.«157733_j5755256177212_1_alg».proof.Proof.Gen.ReferenceIdeal

noncomputable section

namespace Cert.ReferenceIdeal.RefTerm

open Cert.ReferenceIdeal Cert.ReferenceIdeal.Gen Idealize.ShloMosaic

variable {F : FTy → Type} [FloatOps F]

/-- The rectifier over the 8192 batch rows: the maximum with a broadcast zero. -/
def relu8 (X : FVec F S8192x256 .f32) : FVec F S8192x256 .f32 :=
  maximumf X (broadcastInDim S8192x256 ![] bcast_S_S8192x256 (constant S_ .f32 0x00000000#32))

/-- A bias vector laid along each of the 8192 rows. -/
def bias8 (b : FVec F S256 .f32) : FVec F S8192x256 .f32 :=
  broadcastInDim S8192x256 ![0, 1] bcast_S1x256_S8192x256_0_1 (broadcastInDim S1x256 ![1] bcast_S256_S1x256_1 b)

/-- The rectifier over the 8192 · 51 quadrature rows. -/
def reluQ (X : FVec F S417792x256 .f32) : FVec F S417792x256 .f32 :=
  maximumf X (broadcastInDim S417792x256 ![] bcast_S_S417792x256 (constant S_ .f32 0x00000000#32))

/-- A bias vector laid along each quadrature row. -/
def biasQ (b : FVec F S256 .f32) : FVec F S417792x256 .f32 :=
  broadcastInDim S417792x256 ![0, 1] bcast_S1x256_S417792x256_0_1 (broadcastInDim S1x256 ![1] bcast_S256_S1x256_1 b)

/-- The conditioner network's two outputs per batch row. -/
def condOut (h : FVec F S8192x15 .f32) (hw0 : FVec F S15x256 .f32) (hb0 : FVec F S256 .f32) (hw1 : FVec F S256x256 .f32)
    (hb1 : FVec F S256 .f32) (hw2 : FVec F S256x256 .f32) (hb2 : FVec F S256 .f32) (hw3 : FVec F S256x2 .f32)
    (hb3 : FVec F S2 .f32) : FVec F S8192x2 .f32 :=
  addf (Host.dotGeneral dot_S8192x256_S256x2_S8192x2_1_0_0_1_n_n none
      (relu8 (addf (Host.dotGeneral dot_S8192x256_S256x256_S8192x256_1_0_0_1_n_n none
        (relu8 (addf (Host.dotGeneral dot_S8192x256_S256x256_S8192x256_1_0_0_1_n_n none
          (relu8 (addf (Host.dotGeneral dot_S8192x15_S15x256_S8192x256_1_0_0_1_n_n none h hw0) (bias8 hb0)))
          hw1) (bias8 hb1)))
        hw2) (bias8 hb2)))
      hw3)
    (broadcastInDim S8192x2 ![0, 1] bcast_S1x2_S8192x2_0_1 (broadcastInDim S1x2 ![1] bcast_S2_S1x2_1 hb3))

/-- The quadrature points: per batch row and node, the scaled abscissa followed by the row's fifteen features. -/
def xhOf (steps : FVec F S51x1 .f32) (x : FVec F S8192x1 .f32) (h : FVec F S8192x15 .f32) : FVec F S8192x51x16 .f32 :=
  concatenate S8192x51x16 2
    [⟨S8192x51x1, mulf (mulf
        (broadcastInDim S8192x51x1 ![0, 1, 2] bcast_S8192x1x1_S8192x51x1_0_1_2
          (broadcastInDim S8192x1x1 ![0, 2] bcast_S8192x1_S8192x1x1_0_2 x))
        (broadcastInDim S8192x51x1 ![0, 1, 2] bcast_S1x51x1_S8192x51x1_0_1_2
          (addf (broadcastInDim S1x51x1 ![1, 2] bcast_S51x1_S1x51x1_1_2 steps)
            (broadcastInDim S1x51x1 ![] bcast_S_S1x51x1 (constant S_ .f32 0x3F800000#32)))))
        (broadcastInDim S8192x51x1 ![] bcast_S_S8192x51x1 (constant S_ .f32 0x3F000000#32))⟩,
     ⟨S8192x51x15, broadcastInDim S8192x51x15 ![0, 1, 2] bcast_S8192x1x15_S8192x51x15_0_1_2
        (broadcastInDim S8192x1x15 ![0, 2] bcast_S8192x15_S8192x1x15_0_2 h)⟩]
    concatenates_S8192x51x1_S8192x51x15_S8192x51x16_d2

/-- The integrand network's pre-activation, one per quadrature row. -/
def zfOf (xh : FVec F S8192x51x16 .f32) (iw0 : FVec F S16x256 .f32) (ib0 : FVec F S256 .f32) (iw1 : FVec F S256x256 .f32)
    (ib1 : FVec F S256 .f32) (iw2 : FVec F S256x256 .f32) (ib2 : FVec F S256 .f32) (iw3 : FVec F S256x1 .f32)
    (ib3 : FVec F S1 .f32) : FVec F S417792x1 .f32 :=
  addf (Host.dotGeneral dot_S417792x256_S256x1_S417792x1_1_0_0_1_n_n none
      (reluQ (addf (Host.dotGeneral dot_S417792x256_S256x256_S417792x256_1_0_0_1_n_n none
        (reluQ (addf (Host.dotGeneral dot_S417792x256_S256x256_S417792x256_1_0_0_1_n_n none
          (reluQ (addf (Host.dotGeneral dot_S417792x16_S16x256_S417792x256_1_0_0_1_n_n none
            (shapeCast S417792x16 xh shapeCasts_S8192x51x16_S417792x16) iw0) (biasQ ib0)))
          iw1) (biasQ ib1)))
        iw2) (biasQ ib2)))
      iw3)
    (broadcastInDim S417792x1 ![0, 1] bcast_S1x1_S417792x1_0_1 (broadcastInDim S1x1 ![1] bcast_S1_S1x1_1 ib3))

/-- The exponential linear unit as jax spells it: `x` where positive, else `1 · (e^y − 1)` at `y` the
    argument with its positive entries replaced by zero. -/
def eluOf (z : FVec F S417792x1 .f32) : FVec F S417792x1 .f32 :=
  select (cmpf .ogt z (broadcastInDim S417792x1 ![] bcast_S_S417792x1 (constant S_ .f32 0x00000000#32))) z
    (mulf (broadcastInDim S417792x1 ![] bcast_S_S417792x1 (constant S_ .f32 0x3F800000#32))
      (Host.expm1 (select (cmpf .ogt z (broadcastInDim S417792x1 ![] bcast_S_S417792x1 (constant S_ .f32 0x00000000#32)))
        (broadcastInDim S417792x1 ![] bcast_S_S417792x1 (id (constant S_ .f32 0x00000000#32))) z)))

/-- The weighted quadrature sum, scaled by `x / 2`. -/
def integralOf (ccw : FVec F S51x1 .f32) (x : FVec F S8192x1 .f32) (zf : FVec F S417792x1 .f32) : FVec F S8192x1 .f32 :=
  mulf (mulf
      (Host.reduceAdd
        (mulf (shapeCast S8192x51x1
            (addf (eluOf zf) (broadcastInDim S417792x1 ![] bcast_S_S417792x1 (constant S_ .f32 0x3F800000#32)))
            shapeCasts_S417792x1_S8192x51x1)
          (broadcastInDim S8192x51x1 ![0, 1, 2] bcast_S1x51x1_S8192x51x1_0_1_2
            (broadcastInDim S1x51x1 ![1, 2] bcast_S51x1_S1x51x1_1_2 ccw)))
        (constant S_ .f32 0x00000000#32) reducesTo_S8192x51x1_S8192x1_d1 h_S_)
      x)
    (broadcastInDim S8192x1 ![] bcast_S_S8192x1 (constant S_ .f32 0x3F000000#32))

/-- The two constant tables of the module: the quadrature weights and the Chebyshev nodes. -/
def ccwTab : FVec F S51x1 .f32 := fun i => FloatOps.ofBits .f32 (lit0 (S51x1.rowMajor i))
def stepsTab : FVec F S51x1 .f32 := fun i => FloatOps.ofBits .f32 (lit1 (S51x1.rowMajor i))

/-- The reference's result as one term of its eighteen arguments. -/
def refOut (x : FVec F S8192x1 .f32) (h : FVec F S8192x15 .f32) (iw0 : FVec F S16x256 .f32) (ib0 : FVec F S256 .f32)
    (iw1 : FVec F S256x256 .f32) (ib1 : FVec F S256 .f32) (iw2 : FVec F S256x256 .f32) (ib2 : FVec F S256 .f32)
    (iw3 : FVec F S256x1 .f32) (ib3 : FVec F S1 .f32) (hw0 : FVec F S15x256 .f32) (hb0 : FVec F S256 .f32)
    (hw1 : FVec F S256x256 .f32) (hb1 : FVec F S256 .f32) (hw2 : FVec F S256x256 .f32) (hb2 : FVec F S256 .f32)
    (hw3 : FVec F S256x2 .f32) (hb3 : FVec F S2 .f32) : FVec F S8192x1 .f32 :=
  addf (mulf
      (Host.exp (extractStridedSlice S8192x1 ![0, 1] (condOut h hw0 hb0 hw1 hb1 hw2 hb2 hw3 hb3) slices_S8192x2_S8192x1_0_1))
      (integralOf ccwTab x (zfOf (xhOf stepsTab x h) iw0 ib0 iw1 ib1 iw2 ib2 iw3 ib3)))
    (extractStridedSlice S8192x1 ![0, 0] (condOut h hw0 hb0 hw1 hb1 hw2 hb2 hw3 hb3) slices_S8192x2_S8192x1_0_0)

end Cert.ReferenceIdeal.RefTerm

end
-- ==== Proof.RefRun.lean ====
import proofs.«157733_j5755256177212_1_alg».proof.Proof.Gen.ReferenceIdeal
import proofs.«157733_j5755256177212_1_alg».proof.Proof.RefTerm
import Idealize.ShloMosaic.Lib.StableHlo.Run
import Idealize.ShloMosaic.Lib.Pipeline.Regions

/-! # The reference program's run

The reference's @main is a straight line of one hundred tensor operations once each call is replaced by
the callee's body over the call's own buffers: three rectifiers over the 8192 batch rows, three over the
8192 · 51 quadrature rows, and the exponential linear unit with its two selects. This module lists those
operations in program order, shows @main equal to their sequence, and reads the run back: every weakly fair
execution terminates with each buffer at the fold of the operations over the launch contents; the eighteen
argument buffers are written by no operation and keep their contents. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- @main's one hundred operations in program order, each call's body written at its site over the call's buffers
    (a callee's argument is the caller's buffer at the callee's declared tensor type). -/
abbrev ops : List (HloOp τ sig (Elt F)) :=
  [ StableHlo.nullary main_cst (fun i => FloatOps.ofBits .f32 (lit0 (S51x1.rowMajor i))),
    StableHlo.nullary main_cst_0 (fun i => FloatOps.ofBits .f32 (lit1 (S51x1.rowMajor i))),
    StableHlo.binary main_arg1 main_arg10 main_v0 ((fun l r => Host.dotGeneral dot_S8192x15_S15x256_S8192x256_1_0_0_1_n_n none l r) : (⟨S8192x15, .f32⟩ : BufTy).Contents (Elt F) → (⟨S15x256, .f32⟩ : BufTy).Contents (Elt F) → (⟨S8192x256, .f32⟩ : BufTy).Contents (Elt F)),
    StableHlo.unary main_arg11 main_v1 (broadcastInDim S1x256 ![1] bcast_S256_S1x256_1 : (⟨S256, .f32⟩ : BufTy).Contents (Elt F) → (⟨S1x256, .f32⟩ : BufTy).Contents (Elt F)),
    StableHlo.unary main_v1 main_v2 (broadcastInDim S8192x256 ![0, 1] bcast_S1x256_S8192x256_0_1 : (⟨S1x256, .f32⟩ : BufTy).Contents (Elt F) → (⟨S8192x256, .f32⟩ : BufTy).Contents (Elt F)),
    StableHlo.binary main_v0 main_v2 main_v3 (addf : (⟨S8192x256, .f32⟩ : BufTy).Contents (Elt F) → (⟨S8192x256, .f32⟩ : BufTy).Contents (Elt F) → (⟨S8192x256, .f32⟩ : BufTy).Contents (Elt F)),
    StableHlo.TRef.nullary main_call0.cst (constant S_ .f32 0x00000000#32),
    StableHlo.TRef.unary main_call0.cst main_call0.v0 (broadcastInDim S8192x256 ![] bcast_S_S8192x256),
    StableHlo.TRef.binary (.of main_v3 : StableHlo.TRef sig ⟨S8192x256, .f32⟩) main_call0.v0 main_call0.v1 maximumf,
    StableHlo.binary main_v4 main_arg12 main_v5 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    StableHlo.unary main_arg13 main_v6 (broadcastInDim S1x256 ![1] bcast_S256_S1x256_1 : (⟨S256, .f32⟩ : BufTy).Contents (Elt F) → (⟨S1x256, .f32⟩ : BufTy).Contents (Elt F)),
    StableHlo.unary main_v6 main_v7 (broadcastInDim S8192x256 ![0, 1] bcast_S1x256_S8192x256_0_1 : (⟨S1x256, .f32⟩ : BufTy).Contents (Elt F) → (⟨S8192x256, .f32⟩ : BufTy).Contents (Elt F)),
    StableHlo.binary main_v5 main_v7 main_v8 (addf : (⟨S8192x256, .f32⟩ : BufTy).Contents (Elt F) → (⟨S8192x256, .f32⟩ : BufTy).Contents (Elt F) → (⟨S8192x256, .f32⟩ : BufTy).Contents (Elt F)),
    StableHlo.TRef.nullary main_call1.cst (constant S_ .f32 0x00000000#32),
    StableHlo.TRef.unary main_call1.cst main_call1.v0 (broadcastInDim S8192x256 ![] bcast_S_S8192x256),
    StableHlo.TRef.binary (.of main_v8 : StableHlo.TRef sig ⟨S8192x256, .f32⟩) main_call1.v0 main_call1.v1 maximumf,
    StableHlo.binary main_v9 main_arg14 main_v10 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    StableHlo.unary main_arg15 main_v11 (broadcastInDim S1x256 ![1] bcast_S256_S1x256_1 : (⟨S256, .f32⟩ : BufTy).Contents (Elt F) → (⟨S1x256, .f32⟩ : BufTy).Contents (Elt F)),
    StableHlo.unary main_v11 main_v12 (broadcastInDim S8192x256 ![0, 1] bcast_S1x256_S8192x256_0_1 : (⟨S1x256, .f32⟩ : BufTy).Contents (Elt F) → (⟨S8192x256, .f32⟩ : BufTy).Contents (Elt F)),
    StableHlo.binary main_v10 main_v12 main_v13 (addf : (⟨S8192x256, .f32⟩ : BufTy).Contents (Elt F) → (⟨S8192x256, .f32⟩ : BufTy).Contents (Elt F) → (⟨S8192x256, .f32⟩ : BufTy).Contents (Elt F)),
    StableHlo.TRef.nullary main_call2.cst (constant S_ .f32 0x00000000#32),
    StableHlo.TRef.unary main_call2.cst main_call2.v0 (broadcastInDim S8192x256 ![] bcast_S_S8192x256),
    StableHlo.TRef.binary (.of main_v13 : StableHlo.TRef sig ⟨S8192x256, .f32⟩) main_call2.v0 main_call2.v1 maximumf,
    StableHlo.binary main_v14 main_arg16 main_v15 ((fun l r => Host.dotGeneral dot_S8192x256_S256x2_S8192x2_1_0_0_1_n_n none l r) : (⟨S8192x256, .f32⟩ : BufTy).Contents (Elt F) → (⟨S256x2, .f32⟩ : BufTy).Contents (Elt F) → (⟨S8192x2, .f32⟩ : BufTy).Contents (Elt F)),
    StableHlo.unary main_arg17 main_v16 (broadcastInDim S1x2 ![1] bcast_S2_S1x2_1 : (⟨S2, .f32⟩ : BufTy).Contents (Elt F) → (⟨S1x2, .f32⟩ : BufTy).Contents (Elt F)),
    StableHlo.unary main_v16 main_v17 (broadcastInDim S8192x2 ![0, 1] bcast_S1x2_S8192x2_0_1 : (⟨S1x2, .f32⟩ : BufTy).Contents (Elt F) → (⟨S8192x2, .f32⟩ : BufTy).Contents (Elt F)),
    StableHlo.binary main_v15 main_v17 main_v18 (addf : (⟨S8192x2, .f32⟩ : BufTy).Contents (Elt F) → (⟨S8192x2, .f32⟩ : BufTy).Contents (Elt F) → (⟨S8192x2, .f32⟩ : BufTy).Contents (Elt F)),
    StableHlo.unary main_v18 main_v19 ((extractStridedSlice S8192x1 ![0, 0] · slices_S8192x2_S8192x1_0_0) : (⟨S8192x2, .f32⟩ : BufTy).Contents (Elt F) → (⟨S8192x1, .f32⟩ : BufTy).Contents (Elt F)),
    StableHlo.unary main_v18 main_v20 ((extractStridedSlice S8192x1 ![0, 1] · slices_S8192x2_S8192x1_0_1) : (⟨S8192x2, .f32⟩ : BufTy).Contents (Elt F) → (⟨S8192x1, .f32⟩ : BufTy).Contents (Elt F)),
    StableHlo.unary main_v20 main_v21 (Host.exp : (⟨S8192x1, .f32⟩ : BufTy).Contents (Elt F) → (⟨S8192x1, .f32⟩ : BufTy).Contents (Elt F)),
    StableHlo.unary main_arg0 main_v22 (broadcastInDim S8192x1x1 ![0, 2] bcast_S8192x1_S8192x1x1_0_2 : (⟨S8192x1, .f32⟩ : BufTy).Contents (Elt F) → (⟨S8192x1x1, .f32⟩ : BufTy).Contents (Elt F)),
    StableHlo.unary main_cst_0 main_v23 (broadcastInDim S1x51x1 ![1, 2] bcast_S51x1_S1x51x1_1_2 : (⟨S51x1, .f32⟩ : BufTy).Contents (Elt F) → (⟨S1x51x1, .f32⟩ : BufTy).Contents (Elt F)),
    StableHlo.nullary main_cst_1 (constant S_ .f32 0x3F800000#32),
    StableHlo.unary main_cst_1 main_v24 (broadcastInDim S1x51x1 ![] bcast_S_S1x51x1 : (⟨S_, .f32⟩ : BufTy).Contents (Elt F) → (⟨S1x51x1, .f32⟩ : BufTy).Contents (Elt F)),
    StableHlo.binary main_v23 main_v24 main_v25 (addf : (⟨S1x51x1, .f32⟩ : BufTy).Contents (Elt F) → (⟨S1x51x1, .f32⟩ : BufTy).Contents (Elt F) → (⟨S1x51x1, .f32⟩ : BufTy).Contents (Elt F)),
    StableHlo.unary main_v22 main_v26 (broadcastInDim S8192x51x1 ![0, 1, 2] bcast_S8192x1x1_S8192x51x1_0_1_2 : (⟨S8192x1x1, .f32⟩ : BufTy).Contents (Elt F) → (⟨S8192x51x1, .f32⟩ : BufTy).Contents (Elt F)),
    StableHlo.unary main_v25 main_v27 (broadcastInDim S8192x51x1 ![0, 1, 2] bcast_S1x51x1_S8192x51x1_0_1_2 : (⟨S1x51x1, .f32⟩ : BufTy).Contents (Elt F) → (⟨S8192x51x1, .f32⟩ : BufTy).Contents (Elt F)),
    StableHlo.binary main_v26 main_v27 main_v28 (mulf : (⟨S8192x51x1, .f32⟩ : BufTy).Contents (Elt F) → (⟨S8192x51x1, .f32⟩ : BufTy).Contents (Elt F) → (⟨S8192x51x1, .f32⟩ : BufTy).Contents (Elt F)),
    StableHlo.nullary main_cst_2 (constant S_ .f32 0x3F000000#32),
    StableHlo.unary main_cst_2 main_v29 (broadcastInDim S8192x51x1 ![] bcast_S_S8192x51x1 : (⟨S_, .f32⟩ : BufTy).Contents (Elt F) → (⟨S8192x51x1, .f32⟩ : BufTy).Contents (Elt F)),
    StableHlo.binary main_v28 main_v29 main_v30 (mulf : (⟨S8192x51x1, .f32⟩ : BufTy).Contents (Elt F) → (⟨S8192x51x1, .f32⟩ : BufTy).Contents (Elt F) → (⟨S8192x51x1, .f32⟩ : BufTy).Contents (Elt F)),
    StableHlo.unary main_arg1 main_v31 (broadcastInDim S8192x1x15 ![0, 2] bcast_S8192x15_S8192x1x15_0_2 : (⟨S8192x15, .f32⟩ : BufTy).Contents (Elt F) → (⟨S8192x1x15, .f32⟩ : BufTy).Contents (Elt F)),
    StableHlo.unary main_v31 main_v32 (broadcastInDim S8192x51x15 ![0, 1, 2] bcast_S8192x1x15_S8192x51x15_0_1_2 : (⟨S8192x1x15, .f32⟩ : BufTy).Contents (Elt F) → (⟨S8192x51x15, .f32⟩ : BufTy).Contents (Elt F)),
    StableHlo.binary main_v30 main_v32 main_v33 ((fun a b => concatenate S8192x51x16 2 [⟨S8192x51x1, a⟩, ⟨S8192x51x15, b⟩] concatenates_S8192x51x1_S8192x51x15_S8192x51x16_d2) : (⟨S8192x51x1, .f32⟩ : BufTy).Contents (Elt F) → (⟨S8192x51x15, .f32⟩ : BufTy).Contents (Elt F) → (⟨S8192x51x16, .f32⟩ : BufTy).Contents (Elt F)),
    StableHlo.reshape main_v33 main_v34 rfl shapeCasts_S8192x51x16_S417792x16,
    StableHlo.binary main_v34 main_arg2 main_v35 ((fun l r => Host.dotGeneral dot_S417792x16_S16x256_S417792x256_1_0_0_1_n_n none l r) : (⟨S417792x16, .f32⟩ : BufTy).Contents (Elt F) → (⟨S16x256, .f32⟩ : BufTy).Contents (Elt F) → (⟨S417792x256, .f32⟩ : BufTy).Contents (Elt F)),
    StableHlo.unary main_arg3 main_v36 (broadcastInDim S1x256 ![1] bcast_S256_S1x256_1 : (⟨S256, .f32⟩ : BufTy).Contents (Elt F) → (⟨S1x256, .f32⟩ : BufTy).Contents (Elt F)),
    StableHlo.unary main_v36 main_v37 (broadcastInDim S417792x256 ![0, 1] bcast_S1x256_S417792x256_0_1 : (⟨S1x256, .f32⟩ : BufTy).Contents (Elt F) → (⟨S417792x256, .f32⟩ : BufTy).Contents (Elt F)),
    StableHlo.binary main_v35 main_v37 main_v38 (addf : (⟨S417792x256, .f32⟩ : BufTy).Contents (Elt F) → (⟨S417792x256, .f32⟩ : BufTy).Contents (Elt F) → (⟨S417792x256, .f32⟩ : BufTy).Contents (Elt F)),
    StableHlo.TRef.nullary main_call3.cst (constant S_ .f32 0x00000000#32),
    StableHlo.TRef.unary main_call3.cst main_call3.v0 (broadcastInDim S417792x256 ![] bcast_S_S417792x256),
    StableHlo.TRef.binary (.of main_v38 : StableHlo.TRef sig ⟨S417792x256, .f32⟩) main_call3.v0 main_call3.v1 maximumf,
    StableHlo.binary main_v39 main_arg4 main_v40 ((fun l r => Host.dotGeneral dot_S417792x256_S256x256_S417792x256_1_0_0_1_n_n none l r) : (⟨S417792x256, .f32⟩ : BufTy).Contents (Elt F) → (⟨S256x256, .f32⟩ : BufTy).Contents (Elt F) → (⟨S417792x256, .f32⟩ : BufTy).Contents (Elt F)),
    StableHlo.unary main_arg5 main_v41 (broadcastInDim S1x256 ![1] bcast_S256_S1x256_1 : (⟨S256, .f32⟩ : BufTy).Contents (Elt F) → (⟨S1x256, .f32⟩ : BufTy).Contents (Elt F)),
    StableHlo.unary main_v41 main_v42 (broadcastInDim S417792x256 ![0, 1] bcast_S1x256_S417792x256_0_1 : (⟨S1x256, .f32⟩ : BufTy).Contents (Elt F) → (⟨S417792x256, .f32⟩ : BufTy).Contents (Elt F)),
    StableHlo.binary main_v40 main_v42 main_v43 (addf : (⟨S417792x256, .f32⟩ : BufTy).Contents (Elt F) → (⟨S417792x256, .f32⟩ : BufTy).Contents (Elt F) → (⟨S417792x256, .f32⟩ : BufTy).Contents (Elt F)),
    StableHlo.TRef.nullary main_call4.cst (constant S_ .f32 0x00000000#32),
    StableHlo.TRef.unary main_call4.cst main_call4.v0 (broadcastInDim S417792x256 ![] bcast_S_S417792x256),
    StableHlo.TRef.binary (.of main_v43 : StableHlo.TRef sig ⟨S417792x256, .f32⟩) main_call4.v0 main_call4.v1 maximumf,
    StableHlo.binary main_v44 main_arg6 main_v45 ((fun l r => Host.dotGeneral dot_S417792x256_S256x256_S417792x256_1_0_0_1_n_n none l r) : (⟨S417792x256, .f32⟩ : BufTy).Contents (Elt F) → (⟨S256x256, .f32⟩ : BufTy).Contents (Elt F) → (⟨S417792x256, .f32⟩ : BufTy).Contents (Elt F)),
    StableHlo.unary main_arg7 main_v46 (broadcastInDim S1x256 ![1] bcast_S256_S1x256_1 : (⟨S256, .f32⟩ : BufTy).Contents (Elt F) → (⟨S1x256, .f32⟩ : BufTy).Contents (Elt F)),
    StableHlo.unary main_v46 main_v47 (broadcastInDim S417792x256 ![0, 1] bcast_S1x256_S417792x256_0_1 : (⟨S1x256, .f32⟩ : BufTy).Contents (Elt F) → (⟨S417792x256, .f32⟩ : BufTy).Contents (Elt F)),
    StableHlo.binary main_v45 main_v47 main_v48 (addf : (⟨S417792x256, .f32⟩ : BufTy).Contents (Elt F) → (⟨S417792x256, .f32⟩ : BufTy).Contents (Elt F) → (⟨S417792x256, .f32⟩ : BufTy).Contents (Elt F)),
    StableHlo.TRef.nullary main_call5.cst (constant S_ .f32 0x00000000#32),
    StableHlo.TRef.unary main_call5.cst main_call5.v0 (broadcastInDim S417792x256 ![] bcast_S_S417792x256),
    StableHlo.TRef.binary (.of main_v48 : StableHlo.TRef sig ⟨S417792x256, .f32⟩) main_call5.v0 main_call5.v1 maximumf,
    StableHlo.binary main_v49 main_arg8 main_v50 ((fun l r => Host.dotGeneral dot_S417792x256_S256x1_S417792x1_1_0_0_1_n_n none l r) : (⟨S417792x256, .f32⟩ : BufTy).Contents (Elt F) → (⟨S256x1, .f32⟩ : BufTy).Contents (Elt F) → (⟨S417792x1, .f32⟩ : BufTy).Contents (Elt F)),
    StableHlo.unary main_arg9 main_v51 (broadcastInDim S1x1 ![1] bcast_S1_S1x1_1 : (⟨S1, .f32⟩ : BufTy).Contents (Elt F) → (⟨S1x1, .f32⟩ : BufTy).Contents (Elt F)),
    StableHlo.unary main_v51 main_v52 (broadcastInDim S417792x1 ![0, 1] bcast_S1x1_S417792x1_0_1 : (⟨S1x1, .f32⟩ : BufTy).Contents (Elt F) → (⟨S417792x1, .f32⟩ : BufTy).Contents (Elt F)),
    StableHlo.binary main_v50 main_v52 main_v53 (addf : (⟨S417792x1, .f32⟩ : BufTy).Contents (Elt F) → (⟨S417792x1, .f32⟩ : BufTy).Contents (Elt F) → (⟨S417792x1, .f32⟩ : BufTy).Contents (Elt F)),
    StableHlo.TRef.nullary main_call6.cst (constant S_ .f32 0x00000000#32),
    StableHlo.TRef.unary main_call6.cst main_call6.v0 (broadcastInDim S417792x1 ![] bcast_S_S417792x1),
    StableHlo.TRef.binary (.of main_v53 : StableHlo.TRef sig ⟨S417792x1, .f32⟩) main_call6.v0 main_call6.v1 (cmpf .ogt),
    StableHlo.TRef.nullary main_call6.cst_0 (constant S_ .f32 0x00000000#32),
    StableHlo.TRef.unary main_call6.cst_0 main_call6.v2 (broadcastInDim S417792x1 ![] bcast_S_S417792x1),
    StableHlo.TRef.binary (.of main_v53 : StableHlo.TRef sig ⟨S417792x1, .f32⟩) main_call6.v2 main_call6.v3 (cmpf .ogt),
    StableHlo.TRef.nullary main_call6.cst_1 (constant S_ .f32 0x00000000#32),
    StableHlo.TRef.unary main_call6.cst_1 main_call6.call0.v0 id,
    StableHlo.TRef.unary main_call6.call0.v0 main_call6.call0.v1 (broadcastInDim S417792x1 ![] bcast_S_S417792x1),
    StableHlo.TRef.ternary main_call6.v3 main_call6.call0.v1 (.of main_v53 : StableHlo.TRef sig ⟨S417792x1, .f32⟩) main_call6.call0.v2 select,
    StableHlo.TRef.unary main_call6.call0.v2 main_call6.v5 Host.expm1,
    StableHlo.TRef.nullary main_call6.cst_2 (constant S_ .f32 0x3F800000#32),
    StableHlo.TRef.unary main_call6.cst_2 main_call6.v6 (broadcastInDim S417792x1 ![] bcast_S_S417792x1),
    StableHlo.TRef.binary main_call6.v6 main_call6.v5 main_call6.v7 mulf,
    StableHlo.TRef.ternary main_call6.v1 (.of main_v53 : StableHlo.TRef sig ⟨S417792x1, .f32⟩) main_call6.v7 main_call6.call1.v0 select,
    StableHlo.nullary main_cst_3 (constant S_ .f32 0x3F800000#32),
    StableHlo.unary main_cst_3 main_v55 (broadcastInDim S417792x1 ![] bcast_S_S417792x1 : (⟨S_, .f32⟩ : BufTy).Contents (Elt F) → (⟨S417792x1, .f32⟩ : BufTy).Contents (Elt F)),
    StableHlo.binary main_v54 main_v55 main_v56 (addf : (⟨S417792x1, .f32⟩ : BufTy).Contents (Elt F) → (⟨S417792x1, .f32⟩ : BufTy).Contents (Elt F) → (⟨S417792x1, .f32⟩ : BufTy).Contents (Elt F)),
    StableHlo.reshape main_v56 main_v57 rfl shapeCasts_S417792x1_S8192x51x1,
    StableHlo.unary main_cst main_v58 (broadcastInDim S1x51x1 ![1, 2] bcast_S51x1_S1x51x1_1_2 : (⟨S51x1, .f32⟩ : BufTy).Contents (Elt F) → (⟨S1x51x1, .f32⟩ : BufTy).Contents (Elt F)),
    StableHlo.unary main_v58 main_v59 (broadcastInDim S8192x51x1 ![0, 1, 2] bcast_S1x51x1_S8192x51x1_0_1_2 : (⟨S1x51x1, .f32⟩ : BufTy).Contents (Elt F) → (⟨S8192x51x1, .f32⟩ : BufTy).Contents (Elt F)),
    StableHlo.binary main_v57 main_v59 main_v60 (mulf : (⟨S8192x51x1, .f32⟩ : BufTy).Contents (Elt F) → (⟨S8192x51x1, .f32⟩ : BufTy).Contents (Elt F) → (⟨S8192x51x1, .f32⟩ : BufTy).Contents (Elt F)),
    StableHlo.nullary main_cst_4 (constant S_ .f32 0x00000000#32),
    StableHlo.binary main_v60 main_cst_4 main_v61 ((fun x v => Host.reduceAdd x v reducesTo_S8192x51x1_S8192x1_d1 h_S_) : (⟨S8192x51x1, .f32⟩ : BufTy).Contents (Elt F) → (⟨S_, .f32⟩ : BufTy).Contents (Elt F) → (⟨S8192x1, .f32⟩ : BufTy).Contents (Elt F)),
    StableHlo.binary main_v61 main_arg0 main_v62 (mulf : (⟨S8192x1, .f32⟩ : BufTy).Contents (Elt F) → (⟨S8192x1, .f32⟩ : BufTy).Contents (Elt F) → (⟨S8192x1, .f32⟩ : BufTy).Contents (Elt F)),
    StableHlo.nullary main_cst_5 (constant S_ .f32 0x3F000000#32),
    StableHlo.unary main_cst_5 main_v63 (broadcastInDim S8192x1 ![] bcast_S_S8192x1 : (⟨S_, .f32⟩ : BufTy).Contents (Elt F) → (⟨S8192x1, .f32⟩ : BufTy).Contents (Elt F)),
    StableHlo.binary main_v62 main_v63 main_v64 (mulf : (⟨S8192x1, .f32⟩ : BufTy).Contents (Elt F) → (⟨S8192x1, .f32⟩ : BufTy).Contents (Elt F) → (⟨S8192x1, .f32⟩ : BufTy).Contents (Elt F)),
    StableHlo.binary main_v21 main_v64 main_v65 (mulf : (⟨S8192x1, .f32⟩ : BufTy).Contents (Elt F) → (⟨S8192x1, .f32⟩ : BufTy).Contents (Elt F) → (⟨S8192x1, .f32⟩ : BufTy).Contents (Elt F)),
    StableHlo.binary main_v65 main_v19 main_v66 (addf : (⟨S8192x1, .f32⟩ : BufTy).Contents (Elt F) → (⟨S8192x1, .f32⟩ : BufTy).Contents (Elt F) → (⟨S8192x1, .f32⟩ : BufTy).Contents (Elt F)) ]

/-- @main is that straight line: both sides unfold to the same chain of steps, the two windows and the
    callees' bodies re-associated into one sequence. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., nullary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., nullary_bufs_sub .., unary_bufs_sub .., binary_bufs_sub .., binary_bufs_sub .., unary_bufs_sub ..,
    unary_bufs_sub .., binary_bufs_sub .., nullary_bufs_sub .., unary_bufs_sub .., binary_bufs_sub .., binary_bufs_sub ..,
    unary_bufs_sub .., unary_bufs_sub .., binary_bufs_sub .., unary_bufs_sub .., unary_bufs_sub .., unary_bufs_sub ..,
    unary_bufs_sub .., unary_bufs_sub .., nullary_bufs_sub .., unary_bufs_sub .., binary_bufs_sub .., unary_bufs_sub ..,
    unary_bufs_sub .., binary_bufs_sub .., nullary_bufs_sub .., unary_bufs_sub .., binary_bufs_sub .., unary_bufs_sub ..,
    unary_bufs_sub .., binary_bufs_sub .., reshape_bufs_sub .., binary_bufs_sub .., unary_bufs_sub .., unary_bufs_sub ..,
    binary_bufs_sub .., nullary_bufs_sub .., unary_bufs_sub .., binary_bufs_sub .., binary_bufs_sub .., unary_bufs_sub ..,
    unary_bufs_sub .., binary_bufs_sub .., nullary_bufs_sub .., unary_bufs_sub .., binary_bufs_sub .., binary_bufs_sub ..,
    unary_bufs_sub .., unary_bufs_sub .., binary_bufs_sub .., nullary_bufs_sub .., unary_bufs_sub .., binary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., unary_bufs_sub .., nullary_bufs_sub .., unary_bufs_sub .., binary_bufs_sub ..,
    ternary_bufs_sub .., nullary_bufs_sub .., unary_bufs_sub .., binary_bufs_sub .., reshape_bufs_sub .., unary_bufs_sub ..,
    unary_bufs_sub .., binary_bufs_sub .., nullary_bufs_sub .., binary_bufs_sub .., binary_bufs_sub .., nullary_bufs_sub ..,
    unary_bufs_sub .., binary_bufs_sub .., binary_bufs_sub .., binary_bufs_sub ..⟩

/-- On the compiled mesh, for any float values, from any memory with zero counters: every weakly fair execution of
    @main terminates, and every final state has each TensorCore buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The arguments are kept

No operation writes an argument buffer: the fold leaves each at its launch contents. -/

theorem kept_arg0 (V : Valuation τ sig (Elt F)) : after ops V (main_arg0 : DevRef τ sig) = V (main_arg0 : DevRef τ sig) := by
  after_results_simp

theorem kept_arg1 (V : Valuation τ sig (Elt F)) : after ops V (main_arg1 : DevRef τ sig) = V (main_arg1 : DevRef τ sig) := by
  after_results_simp

theorem kept_arg2 (V : Valuation τ sig (Elt F)) : after ops V (main_arg2 : DevRef τ sig) = V (main_arg2 : DevRef τ sig) := by
  after_results_simp

theorem kept_arg3 (V : Valuation τ sig (Elt F)) : after ops V (main_arg3 : DevRef τ sig) = V (main_arg3 : DevRef τ sig) := by
  after_results_simp

theorem kept_arg4 (V : Valuation τ sig (Elt F)) : after ops V (main_arg4 : DevRef τ sig) = V (main_arg4 : DevRef τ sig) := by
  after_results_simp

theorem kept_arg5 (V : Valuation τ sig (Elt F)) : after ops V (main_arg5 : DevRef τ sig) = V (main_arg5 : DevRef τ sig) := by
  after_results_simp

theorem kept_arg6 (V : Valuation τ sig (Elt F)) : after ops V (main_arg6 : DevRef τ sig) = V (main_arg6 : DevRef τ sig) := by
  after_results_simp

theorem kept_arg7 (V : Valuation τ sig (Elt F)) : after ops V (main_arg7 : DevRef τ sig) = V (main_arg7 : DevRef τ sig) := by
  after_results_simp

theorem kept_arg8 (V : Valuation τ sig (Elt F)) : after ops V (main_arg8 : DevRef τ sig) = V (main_arg8 : DevRef τ sig) := by
  after_results_simp

theorem kept_arg9 (V : Valuation τ sig (Elt F)) : after ops V (main_arg9 : DevRef τ sig) = V (main_arg9 : DevRef τ sig) := by
  after_results_simp

theorem kept_arg10 (V : Valuation τ sig (Elt F)) : after ops V (main_arg10 : DevRef τ sig) = V (main_arg10 : DevRef τ sig) := by
  after_results_simp

theorem kept_arg11 (V : Valuation τ sig (Elt F)) : after ops V (main_arg11 : DevRef τ sig) = V (main_arg11 : DevRef τ sig) := by
  after_results_simp

theorem kept_arg12 (V : Valuation τ sig (Elt F)) : after ops V (main_arg12 : DevRef τ sig) = V (main_arg12 : DevRef τ sig) := by
  after_results_simp

theorem kept_arg13 (V : Valuation τ sig (Elt F)) : after ops V (main_arg13 : DevRef τ sig) = V (main_arg13 : DevRef τ sig) := by
  after_results_simp

theorem kept_arg14 (V : Valuation τ sig (Elt F)) : after ops V (main_arg14 : DevRef τ sig) = V (main_arg14 : DevRef τ sig) := by
  after_results_simp

theorem kept_arg15 (V : Valuation τ sig (Elt F)) : after ops V (main_arg15 : DevRef τ sig) = V (main_arg15 : DevRef τ sig) := by
  after_results_simp

theorem kept_arg16 (V : Valuation τ sig (Elt F)) : after ops V (main_arg16 : DevRef τ sig) = V (main_arg16 : DevRef τ sig) := by
  after_results_simp

theorem kept_arg17 (V : Valuation τ sig (Elt F)) : after ops V (main_arg17 : DevRef τ sig) = V (main_arg17 : DevRef τ sig) := by
  after_results_simp

/-! ## The result

The fold read at the result buffer is the composed term of the eighteen arguments' contents: each operation's
result at its own buffer is its function of its operands' contents, and every other operation leaves that buffer;
a callee's typed references are literal buffers, so their transports are the identity. -/

set_option maxRecDepth 8192 in
set_option maxHeartbeats 1600000 in
theorem out_eq (V : Valuation τ sig (Elt F)) :
    after ops V (main_v66 : DevRef τ sig)
      = RefTerm.refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) := by
  after_results_simp
  rfl

end Cert.ReferenceIdeal.RefRun

end
-- ==== Proof.RefValue.lean ====
import proofs.«157733_j5755256177212_1_alg».proof.Proof.RefTerm
import proofs.«157733_j5755256177212_1_alg».proof.Proof.Spec

noncomputable section

open scoped BigOperators
open Idealize.ShloMosaic Idealize.ShloMosaic.ValueIdx

namespace Cert.ReferenceIdeal.RefValue

open Cert.ReferenceIdeal Cert.ReferenceIdeal.Gen Cert.ReferenceIdeal.RefTerm Cert.Mnn

theorem plain1 : IsPlain (M := 8192) (K := 15) (N := 256) dot_S8192x15_S15x256_S8192x256_1_0_0_1_n_n := ⟨rfl, rfl, rfl, rfl, rfl, rfl⟩
theorem plain2 : IsPlain (M := 8192) (K := 256) (N := 256) dot_S8192x256_S256x256_S8192x256_1_0_0_1_n_n := ⟨rfl, rfl, rfl, rfl, rfl, rfl⟩
theorem plain3 : IsPlain (M := 8192) (K := 256) (N := 2) dot_S8192x256_S256x2_S8192x2_1_0_0_1_n_n := ⟨rfl, rfl, rfl, rfl, rfl, rfl⟩
theorem plain4 : IsPlain (M := 417792) (K := 16) (N := 256) dot_S417792x16_S16x256_S417792x256_1_0_0_1_n_n := ⟨rfl, rfl, rfl, rfl, rfl, rfl⟩
theorem plain5 : IsPlain (M := 417792) (K := 256) (N := 256) dot_S417792x256_S256x256_S417792x256_1_0_0_1_n_n := ⟨rfl, rfl, rfl, rfl, rfl, rfl⟩
theorem plain6 : IsPlain (M := 417792) (K := 256) (N := 1) dot_S417792x256_S256x1_S417792x1_1_0_0_1_n_n := ⟨rfl, rfl, rfl, rfl, rfl, rfl⟩

/-- The conditioner network, batch row by batch row. -/
theorem cond_row (h : FVec Ideal S8192x15 .f32) (hw0 : FVec Ideal S15x256 .f32) (hb0 : FVec Ideal S256 .f32)
    (hw1 : FVec Ideal S256x256 .f32) (hb1 : FVec Ideal S256 .f32) (hw2 : FVec Ideal S256x256 .f32) (hb2 : FVec Ideal S256 .f32)
    (hw3 : FVec Ideal S256x2 .f32) (hb3 : FVec Ideal S2 .f32) (r : Fin 8192) :
    rowOf (condOut h hw0 hb0 hw1 hb1 hw2 hb2 hw3 hb3) r
      = lin (relu (lin (relu (lin (relu (lin (rowOf h r) hw0 (fun j => hb0 (ix1 j)))) hw1 (fun j => hb1 (ix1 j))))
          hw2 (fun j => hb2 (ix1 j)))) hw3 (fun j => hb3 (ix1 j)) := by
  unfold condOut relu8 bias8
  rw [hLin _ plain3, hHid _ plain2, hHid _ plain2, hHid _ plain1]

/-- The integrand network before its last nonlinearity, on the quadrature row `r · 51 + s`. -/
theorem zf_row (xh : FVec Ideal S8192x51x16 .f32) (iw0 : FVec Ideal S16x256 .f32) (ib0 : FVec Ideal S256 .f32)
    (iw1 : FVec Ideal S256x256 .f32) (ib1 : FVec Ideal S256 .f32) (iw2 : FVec Ideal S256x256 .f32) (ib2 : FVec Ideal S256 .f32)
    (iw3 : FVec Ideal S256x1 .f32) (ib3 : FVec Ideal S1 .f32) (r : Fin 8192) (s : Fin 51) (hlt : r.val * 51 + s.val < 417792) :
    rowOf (zfOf xh iw0 ib0 iw1 ib1 iw2 ib2 iw3 ib3) (⟨r.val * 51 + s.val, hlt⟩ : Fin 417792)
      = lin (relu (lin (relu (lin (relu (lin (fun d => xh (ix3 r s d)) iw0 (fun j => ib0 (ix1 j)))) iw1 (fun j => ib1 (ix1 j))))
          iw2 (fun j => ib2 (ix1 j)))) iw3 (fun j => ib3 (ix1 j)) := by
  unfold zfOf reluQ biasQ
  rw [hLin _ plain6, hHid _ plain5, hHid _ plain5, hHid _ plain4, rowOf_cast32 _ _ r s _ rfl]

theorem reduces1 : S8192x51x1.Reduces [1] S8192x1 := by decide

/-- The quadrature sum of one batch row, scaled by `x / 2`. -/
theorem integral_entry (ccw : FVec Ideal S51x1 .f32) (x : FVec Ideal S8192x1 .f32) (zf : FVec Ideal S417792x1 .f32)
    (r : Fin 8192) (u : Fin 1) :
    integralOf ccw x zf (ix2 r u)
      = (∑ s : Fin 51, elu1 (zf (ix2 (⟨r.val * 51 + s.val, by omega⟩ : Fin 417792) u)) * ccw (ix2 s u))
          * x (ix2 r u) * Ideal.ofBits .f32 0x3F000000#32 := by
  unfold integralOf
  change _ * x (ix2 r u) * broadcastInDim S8192x1 ![] bcast_S_S8192x1 (constant (F := Ideal) S_ .f32 0x3F000000#32) (ix2 r u) = _
  rw [broadcastInDim_scalar_apply]
  change _ * x (ix2 r u) * Ideal.ofBits .f32 0x3F000000#32 = _
  refine congrArg (· * x (ix2 r u) * Ideal.ofBits .f32 0x3F000000#32) ?_
  refine (hsum_axis1 _ _ _ reduces1 _ r u).trans ?_
  change Ideal.ofBits .f32 0x00000000#32 + _ = _
  rw [Ideal.ofBits_zero_f32, zero_add]
  refine Finset.sum_congr rfl fun s _ => ?_
  change shapeCast S8192x51x1 _ shapeCasts_S417792x1_S8192x51x1 (ix3 r s u)
      * broadcastInDim S8192x51x1 ![0, 1, 2] bcast_S1x51x1_S8192x51x1_0_1_2
          (broadcastInDim S1x51x1 ![1, 2] bcast_S51x1_S1x51x1_1_2 ccw) (ix3 r s u) = _
  rw [cast23 _ _ r s u (⟨r.val * 51 + s.val, by omega⟩ : Fin 417792) rfl, bcastDim_1bc, bcastDim_bc_1bc]
  unfold eluOf
  rw [hElu]

/-- THE REFERENCE'S RESULT is the network's result row by row. -/
theorem refOut_eq (x : FVec Ideal S8192x1 .f32) (h : FVec Ideal S8192x15 .f32) (iw0 : FVec Ideal S16x256 .f32)
    (ib0 : FVec Ideal S256 .f32) (iw1 : FVec Ideal S256x256 .f32) (ib1 : FVec Ideal S256 .f32) (iw2 : FVec Ideal S256x256 .f32)
    (ib2 : FVec Ideal S256 .f32) (iw3 : FVec Ideal S256x1 .f32) (ib3 : FVec Ideal S1 .f32) (hw0 : FVec Ideal S15x256 .f32)
    (hb0 : FVec Ideal S256 .f32) (hw1 : FVec Ideal S256x256 .f32) (hb1 : FVec Ideal S256 .f32) (hw2 : FVec Ideal S256x256 .f32)
    (hb2 : FVec Ideal S256 .f32) (hw3 : FVec Ideal S256x2 .f32) (hb3 : FVec Ideal S2 .f32) :
    refOut x h iw0 ib0 iw1 ib1 iw2 ib2 iw3 ib3 hw0 hb0 hw1 hb1 hw2 hb2 hw3 hb3
      = G (paramsOf iw0 ib0 iw1 ib1 iw2 ib2 iw3 ib3 hw0 hb0 hw1 hb1 hw2 hb2 hw3 hb3 (ccwTab (F := Ideal))) x h (xhOf (stepsTab (F := Ideal)) x h) := by
  funext i
  obtain ⟨r, u, rfl⟩ : ∃ (r : Fin 8192) (u : Fin 1), i = ix2 r u := ⟨i 0, i 1, eq_ix2 i⟩
  obtain rfl : u = 0 := Subsingleton.elim _ _
  unfold refOut
  change Ideal.exp (extractStridedSlice S8192x1 ![0, 1] (condOut h hw0 hb0 hw1 hb1 hw2 hb2 hw3 hb3) slices_S8192x2_S8192x1_0_1 (ix2 r 0))
      * integralOf (ccwTab (F := Ideal)) x (zfOf (xhOf (stepsTab (F := Ideal)) x h) iw0 ib0 iw1 ib1 iw2 ib2 iw3 ib3) (ix2 r 0)
      + extractStridedSlice S8192x1 ![0, 0] (condOut h hw0 hb0 hw1 hb1 hw2 hb2 hw3 hb3) slices_S8192x2_S8192x1_0_0 (ix2 r 0) = _
  rw [slice2_axis1_apply 1 _ _ r 0 (1 : Fin 2) rfl, slice2_axis1_apply 0 _ _ r 0 (0 : Fin 2) rfl, integral_entry]
  have ec := cond_row h hw0 hb0 hw1 hb1 hw2 hb2 hw3 hb3 r
  have e1 : condOut h hw0 hb0 hw1 hb1 hw2 hb2 hw3 hb3 (ix2 r (1 : Fin 2)) = _ := congrFun ec 1
  have e0 : condOut h hw0 hb0 hw1 hb1 hw2 hb2 hw3 hb3 (ix2 r (0 : Fin 2)) = _ := congrFun ec 0
  rw [e1, e0]
  have ez : ∀ (s : Fin 51) (hlt : r.val * 51 + s.val < 417792),
      zfOf (xhOf (stepsTab (F := Ideal)) x h) iw0 ib0 iw1 ib1 iw2 ib2 iw3 ib3 (ix2 (⟨r.val * 51 + s.val, hlt⟩ : Fin 417792) (0 : Fin 1)) = _ :=
    fun s hlt => congrFun (zf_row (xhOf (stepsTab (F := Ideal)) x h) iw0 ib0 iw1 ib1 iw2 ib2 iw3 ib3 r s hlt) 0
  simp only [ez]
  rfl

end Cert.ReferenceIdeal.RefValue

end
-- ==== Proof.Tables.lean ====
import proofs.«157733_j5755256177212_1_alg».proof.Proof.KernelTerm
import proofs.«157733_j5755256177212_1_alg».proof.Proof.RefTerm

noncomputable section

open Idealize.ShloMosaic

namespace Cert.Proof.Tables

/-- The two programs carry the same table of quadrature weights, word for word. -/
theorem lit0_eq : Cert.KernelIdeal.lit0 = Cert.ReferenceIdeal.lit0 := by
  funext i; revert i; decide

/-- … and the same table of Chebyshev nodes. -/
theorem lit1_eq : Cert.KernelIdeal.lit1 = Cert.ReferenceIdeal.lit1 := by
  funext i; revert i; decide

theorem ccw_eq : Cert.KernelIdeal.Blocks.ccwTab = Cert.ReferenceIdeal.RefTerm.ccwTab (F := Ideal) := by
  funext i
  show FloatOps.ofBits .f32 (Cert.KernelIdeal.lit0 _) = FloatOps.ofBits .f32 (Cert.ReferenceIdeal.lit0 _)
  rw [lit0_eq]

theorem steps_eq : Cert.KernelIdeal.Blocks.stepsTab = Cert.ReferenceIdeal.RefTerm.stepsTab (F := Ideal) := by
  funext i
  show FloatOps.ofBits .f32 (Cert.KernelIdeal.lit1 _) = FloatOps.ofBits .f32 (Cert.ReferenceIdeal.lit1 _)
  rw [lit1_eq]

/-- The host lines that build the quadrature points are the same operations in both programs. -/
theorem xh_eq (s : FVec Ideal Cert.KernelIdeal.S51x1 .f32) (x : FVec Ideal Cert.KernelIdeal.S8192x1 .f32)
    (h : FVec Ideal Cert.KernelIdeal.S8192x15 .f32) :
    Cert.KernelIdeal.Blocks.xhOf s x h = Cert.ReferenceIdeal.RefTerm.xhOf (F := Ideal) s x h := rfl

end Cert.Proof.Tables

end
-- ==== Proof.lean ====
/- The certificate of a monotone network's forward pass: a conditioner network gives each batch row an offset and a
   log-scale, an integrand network is evaluated at fifty-one Clenshaw–Curtis points between 0 and the row's x, and the
   row's result is exp(log-scale) · ((Σₛ (elu(f(pointₛ)) + 1) · wₛ) · x · ½) + offset.
   The kernel computes sixty-four batch rows per grid point (its quadrature rows laid out as 64 · 51 rows of one
   matrix), in bf16-typed matrix products that are exact at the ideal instance; the reference computes all 8192 rows
   (8192 · 51 quadrature rows) at once. Both are the same function row by row: every layer acts on rows independently
   (a row of a product is the row times the weight matrix), the reshape between [rows, 51, ·] and [rows · 51, ·] sends
   row (r, s) to r · 51 + s on both sides, the kernel's `e^z − 1` is the host's `1 · expm1 z`, and both sums run over
   the same fifty-one nodes with the same table of weights. No law of the extended reals beyond `0 + a = a` and
   `1 · a = a` is used, so the finiteness of the inputs is not needed. -/
import proofs.«157733_j5755256177212_1_alg».proof.Defs
import proofs.«157733_j5755256177212_1_alg».proof.Proof.Gen.Kernel
import proofs.«157733_j5755256177212_1_alg».proof.Proof.Gen.Kernel.Frame
import proofs.«157733_j5755256177212_1_alg».proof.Proof.Gen.KernelIdeal
import proofs.«157733_j5755256177212_1_alg».proof.Proof.Gen.KernelIdeal.Frame
import proofs.«157733_j5755256177212_1_alg».proof.Proof.Gen.ReferenceIdeal
import proofs.«157733_j5755256177212_1_alg».proof.Proof.Gen.Pre_finite_inputs
import proofs.«157733_j5755256177212_1_alg».proof.Proof.KernelBlocks
import proofs.«157733_j5755256177212_1_alg».proof.Proof.RefRun
import proofs.«157733_j5755256177212_1_alg».proof.Proof.RefValue
import proofs.«157733_j5755256177212_1_alg».proof.Proof.Tables
import Idealize.ShloMosaic.Adequacy
import Idealize.ShloMosaic.Init

noncomputable section

namespace Cert.Proof

open Idealize.ShloMosaic Idealize.SL.Sem Idealize.ShloMosaic.TcCoe

/-- The reference's run with its result read as the network's result, row by row, of its own arguments. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      fun r => ∀ c : Dev Cert.ReferenceIdeal.nD,
        r.2.mem ((c.tc : Thread Cert.ReferenceIdeal.nD Cert.ReferenceIdeal.τ).loc Cert.ReferenceIdeal.main_v66)
          = Cert.Mnn.G (Cert.Mnn.paramsOf (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (Cert.ReferenceIdeal.RefTerm.ccwTab (F := Ideal)))
              (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
              (Cert.ReferenceIdeal.RefTerm.xhOf (Cert.ReferenceIdeal.RefTerm.stepsTab (F := Ideal)) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
        ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
        ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
        ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
        ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
        ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
        ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
        ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17) :=
  (θ_run Cert.ReferenceIdeal.defs _ _).mono (fun r h c =>
    ⟨(h c Cert.ReferenceIdeal.main_v66).trans ((Cert.ReferenceIdeal.RefRun.out_eq _).trans (Cert.ReferenceIdeal.RefValue.refOut_eq ..)),
      (h c Cert.ReferenceIdeal.main_arg0).trans (Cert.ReferenceIdeal.RefRun.kept_arg0 _),
      (h c Cert.ReferenceIdeal.main_arg1).trans (Cert.ReferenceIdeal.RefRun.kept_arg1 _),
      (h c Cert.ReferenceIdeal.main_arg2).trans (Cert.ReferenceIdeal.RefRun.kept_arg2 _),
      (h c Cert.ReferenceIdeal.main_arg3).trans (Cert.ReferenceIdeal.RefRun.kept_arg3 _),
      (h c Cert.ReferenceIdeal.main_arg4).trans (Cert.ReferenceIdeal.RefRun.kept_arg4 _),
      (h c Cert.ReferenceIdeal.main_arg5).trans (Cert.ReferenceIdeal.RefRun.kept_arg5 _),
      (h c Cert.ReferenceIdeal.main_arg6).trans (Cert.ReferenceIdeal.RefRun.kept_arg6 _),
      (h c Cert.ReferenceIdeal.main_arg7).trans (Cert.ReferenceIdeal.RefRun.kept_arg7 _),
      (h c Cert.ReferenceIdeal.main_arg8).trans (Cert.ReferenceIdeal.RefRun.kept_arg8 _),
      (h c Cert.ReferenceIdeal.main_arg9).trans (Cert.ReferenceIdeal.RefRun.kept_arg9 _),
      (h c Cert.ReferenceIdeal.main_arg10).trans (Cert.ReferenceIdeal.RefRun.kept_arg10 _),
      (h c Cert.ReferenceIdeal.main_arg11).trans (Cert.ReferenceIdeal.RefRun.kept_arg11 _),
      (h c Cert.ReferenceIdeal.main_arg12).trans (Cert.ReferenceIdeal.RefRun.kept_arg12 _),
      (h c Cert.ReferenceIdeal.main_arg13).trans (Cert.ReferenceIdeal.RefRun.kept_arg13 _),
      (h c Cert.ReferenceIdeal.main_arg14).trans (Cert.ReferenceIdeal.RefRun.kept_arg14 _),
      (h c Cert.ReferenceIdeal.main_arg15).trans (Cert.ReferenceIdeal.RefRun.kept_arg15 _),
      (h c Cert.ReferenceIdeal.main_arg16).trans (Cert.ReferenceIdeal.RefRun.kept_arg16 _),
      (h c Cert.ReferenceIdeal.main_arg17).trans (Cert.ReferenceIdeal.RefRun.kept_arg17 _)⟩)
    (Cert.ReferenceIdeal.RefRun.run_all (F := Ideal) m ρ)

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun r h c => (h c).2) (reference_run m ρ)

/-- The ideal pass rewrote nothing: there is nothing to preserve. -/
theorem preserves : Cert.preserves_Kernel_KernelIdeal := trivial

/-- From memories that agree on the arguments both programs end with the network's result of those arguments: the
    kernel's array block by block, the reference's as one term; the two tables of constants agree word for word. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun r h c => ⟨(h c).1.trans ?_, (h c).2⟩) (reference_run m' ρ')
  obtain ⟨a0, a1, a2, a3, a4, a5, a6, a7, a8, a9, a10, a11, a12, a13, a14, a15, a16, a17⟩ := hagree c
  rw [a0, a1, a2, a3, a4, a5, a6, a7, a8, a9, a10, a11, a12, a13, a14, a15, a16, a17]
  show _ = Cert.KernelIdeal.Blocks.result m c
  unfold Cert.KernelIdeal.Blocks.result
  rw [Tables.ccw_eq, Tables.steps_eq, Tables.xh_eq]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
